-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32 : Shape := ⟨2, ![2048, 32]⟩
abbrev S128x64000 : Shape := ⟨2, ![128, 64000]⟩
abbrev S128 : Shape := ⟨1, ![128]⟩
abbrev S64000x128 : Shape := ⟨2, ![64000, 128]⟩
abbrev S64000 : Shape := ⟨1, ![64000]⟩
abbrev S_ : Shape := ⟨0, ![]⟩

class Facts : Prop where
  bcast_S_S128x64000 : S_.BroadcastsInDim S128x64000 (![] : Fin 0 → Fin S128x64000.rank)
  reducesTo_S128x64000_S_d0_1 : S128x64000.ReducesTo [0, 1] S_
  h_S_ : 0 < S_.numel
  bcast_S_S128 : S_.BroadcastsInDim S128 (![] : Fin 0 → Fin S128.rank)
  reducesTo_S128_S_d0 : S128.ReducesTo [0] S_
  bcast_S_S64000x128 : S_.BroadcastsInDim S64000x128 (![] : Fin 0 → Fin S64000x128.rank)
  reducesTo_S64000x128_S_d0_1 : S64000x128.ReducesTo [0, 1] S_
  bcast_S_S64000 : S_.BroadcastsInDim S64000 (![] : Fin 0 → Fin S64000.rank)
  reducesTo_S64000_S_d0 : S64000.ReducesTo [0] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg0 : IVec S2048x32 32) (main_v13 : IVec S_ 1) (main_v16 : IVec S64000 1) : IVec S_ 1 :=
  let main_c_5 : IVec S_ 1 := constantI S_ 1 1#1
  let main_v17 : IVec S_ 1 := (fun x v => Host.reduce IntOp.andi x v reducesTo_S64000_S_d0 h_S_) main_v16 main_c_5
  let main_v18 : IVec S_ 1 := andi main_v13 main_v17
  let main_c_6 : IVec S_ 32 := constantI S_ 32 0#32
  let main_v19 : IVec S2048x32 32 := broadcastInDim S2048x32 ![] bcast_S_S2048x32 main_c_6
  let main_v20 : IVec S2048x32 1 := cmpi .sge main_arg0 main_v19
  let main_c_7 : IVec S_ 1 := constantI S_ 1 1#1
  let main_v21 : IVec S_ 1 := (fun x v => Host.reduce IntOp.andi x v reducesTo_S2048x32_S_d0_1 h_S_) main_v20 main_c_7
  let main_v22 : IVec S_ 1 := andi main_v18 main_v21
  let main_c_8 : IVec S_ 32 := constantI S_ 32 2000#32
  let main_v23 : IVec S2048x32 32 := broadcastInDim S2048x32 ![] bcast_S_S2048x32 main_c_8
  let main_v24 : IVec S2048x32 1 := cmpi .slt main_arg0 main_v23
  let main_c_9 : IVec S_ 1 := constantI S_ 1 1#1
  let main_v25 : IVec S_ 1 := (fun x v => Host.reduce IntOp.andi x v reducesTo_S2048x32_S_d0_1 h_S_) main_v24 main_c_9
  let main_v26 : IVec S_ 1 := andi main_v22 main_v25
  main_v26

def fn {F : FTy → Type} [FloatOps F] (main_arg0 : IVec S2048x32 32) (main_arg1 : FVec F S128x64000 .f32) (main_arg2 : FVec F S128 .f32) (main_arg3 : FVec F S64000x128 .f32) (main_arg4 : FVec F S64000 .f32) : IVec S_ 1 :=
  let main_v0 : FVec F S128x64000 .f32 := Host.absf main_arg1
  let main_cst : FVec F S_ .f32 := constant S_ .f32 0x7F800000#32
  let main_v1 : FVec F S128x64000 .f32 := broadcastInDim S128x64000 ![] bcast_S_S128x64000 main_cst
  let main_v2 : IVec S128x64000 1 := cmpf .olt main_v0 main_v1
  let main_c : IVec S_ 1 := constantI S_ 1 1#1
  let main_v3 : IVec S_ 1 := (fun x v => Host.reduce IntOp.andi x v reducesTo_S128x64000_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S64000x128 .f32 := Host.absf main_arg3
  let main_cst_2 : FVec F S_ .f32 := constant S_ .f32 0x7F800000#32
  let main_v10 : FVec F S64000x128 .f32 := broadcastInDim S64000x128 ![] bcast_S_S64000x128 main_cst_2
  let main_v11 : IVec S64000x128 1 := cmpf .olt main_v9 main_v10
  let main_c_3 : IVec S_ 1 := constantI S_ 1 1#1
  let main_v12 : IVec S_ 1 := (fun x v => Host.reduce IntOp.andi x v reducesTo_S64000x128_S_d0_1 h_S_) main_v11 main_c_3
  let main_v13 : IVec S_ 1 := andi main_v8 main_v12
  let main_v14 : FVec F S64000 .f32 := Host.absf main_arg4
  let main_cst_4 : FVec F S_ .f32 := constant S_ .f32 0x7F800000#32
  let main_v15 : FVec F S64000 .f32 := broadcastInDim S64000 ![] bcast_S_S64000 main_cst_4
  let main_v16 : IVec S64000 1 := cmpf .olt main_v14 main_v15
  fn_part1 (F := F) main_arg0 main_v13 main_v16
-- ==== Kernel.lean ====
abbrev S2048x32 : Shape := ⟨2, ![2048, 32]⟩
abbrev S128x64000 : Shape := ⟨2, ![128, 64000]⟩
abbrev S128 : Shape := ⟨1, ![128]⟩
abbrev S64000x128 : Shape := ⟨2, ![64000, 128]⟩
abbrev S64000 : Shape := ⟨1, ![64000]⟩
abbrev S_ : Shape := ⟨0, ![]⟩
abbrev S64048x128 : Shape := ⟨2, ![64048, 128]⟩
abbrev S1x128 : Shape := ⟨2, ![1, 128]⟩
abbrev S2048x128 : Shape := ⟨2, ![2048, 128]⟩
abbrev S512x32 : Shape := ⟨2, ![512, 32]⟩
abbrev S512x128 : Shape := ⟨2, ![512, 128]⟩
abbrev S512x2048 : Shape := ⟨2, ![512, 2048]⟩
abbrev S512x1 : Shape := ⟨2, ![512, 1]⟩
abbrev S1x64000 : Shape := ⟨2, ![1, 64000]⟩
abbrev S2048x64000 : Shape := ⟨2, ![2048, 64000]⟩
abbrev S1280x128 : Shape := ⟨2, ![1280, 128]⟩
abbrev S1x1280 : Shape := ⟨2, ![1, 1280]⟩
abbrev S2048x1280 : Shape := ⟨2, ![2048, 1280]⟩

abbrev nBuf : Space → Nat
  | .hbm => 23
  | .vmem => 13
  | .smem => 0
  | _ => 0

abbrev bufTy : (tb : Table) → Fin (tcTables nBuf tb) → BufTy
  | .hbm, ⟨0, _⟩ => ⟨S2048x32, .i32⟩
  | .hbm, ⟨1, _⟩ => ⟨S128x64000, .f32⟩
  | .hbm, ⟨2, _⟩ => ⟨S128, .f32⟩
  | .hbm, ⟨3, _⟩ => ⟨S64000x128, .f32⟩
  | .hbm, ⟨4, _⟩ => ⟨S64000, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S2048x32, .i32⟩
  | .hbm, ⟨9, _⟩ => ⟨S2048x32, .i32⟩
  | .hbm, ⟨10, _⟩ => ⟨S_, .i32⟩
  | .hbm, ⟨11, _⟩ => ⟨S2048x32, .i32⟩
  | .hbm, ⟨12, _⟩ => ⟨S2048x32, .i32⟩
  | .hbm, ⟨13, _⟩ => ⟨S128x64000, .bf16⟩
  | .hbm, ⟨14, _⟩ => ⟨S64000x128, .bf16⟩
  | .hbm, ⟨15, _⟩ => ⟨S_, .i32⟩
  | .hbm, ⟨16, _⟩ => ⟨S_, .bf16⟩
  | .hbm, ⟨17, _⟩ => ⟨S64048x128, .bf16⟩
  | .hbm, ⟨18, _⟩ => ⟨S1x128, .f32⟩
  | .hbm, ⟨19, _⟩ => ⟨S2048x128, .f32⟩
  | .hbm, ⟨20, _⟩ => ⟨S64000x128, .bf16⟩
  | .hbm, ⟨21, _⟩ => ⟨S1x64000, .f32⟩
  | .hbm, ⟨22, _⟩ => ⟨S2048x64000, .f32⟩
  | .local _ .vmem, ⟨0, _⟩ => ⟨S512x32, .i32⟩
  | .local _ .vmem, ⟨1, _⟩ => ⟨S512x32, .i32⟩
  | .local _ .vmem, ⟨2, _⟩ => ⟨S64048x128, .bf16⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S2048x128, .f32⟩
  | .local _ .vmem, ⟨7, _⟩ => ⟨S1280x128, .bf16⟩
  | .local _ .vmem, ⟨8, _⟩ => ⟨S1280x128, .bf16⟩
  | .local _ .vmem, ⟨9, _⟩ => ⟨S1x1280, .f32⟩
  | .local _ .vmem, ⟨10, _⟩ => ⟨S1x1280, .f32⟩
  | .local _ .vmem, ⟨11, _⟩ => ⟨S2048x1280, .f32⟩
  | .local _ .vmem, ⟨12, _⟩ => ⟨S2048x1280, .f32⟩
  | _, _ => ⟨S2048x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c_1 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1280x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S2048x32 : S_.BroadcastsInDim S2048x32 (![] : Fin 0 → Fin S2048x32.rank)
  bitsLt_bf16_f32 : FTy.bits .bf16 < FTy.bits .f32
  transposes_S128x64000_S64000x128_1_0 : S128x64000.Transposes [1, 0] S64000x128
  pads_S64000x128_S64048x128_0480_000 : S64000x128.Pads (![0, 0] : Fin 2 → Nat) ![48, 0] ![0, 0] S64048x128
  h_S_ : 0 < S_.numel
  shapeCasts_S128_S1x128 : S128.ShapeCasts S1x128
  iota_S512x2048_d1_w32 : S512x2048.Iotas .tc 32 [1]
  inb_S512x32_S512x1_0_0 : ∀ a, (![0, 0] : Fin 2 → Nat) a + S512x1.size a ≤ S512x32.size a
  h_S512x1 : 0 < S512x1.numel
  shapeCasts_S512x1_S512x1 : S512x1.ShapeCasts S512x1
  broadcasts_S512x1_S512x2048 : S512x1.Broadcasts S512x2048
  natLt_1_32 : 1 < 32
  inb_S64048x128_S2048x128_0_0 : ∀ a, (![0, 0] : Fin 2 → Nat) a + S2048x128.size a ≤ S64048x128.size a
  h_S2048x128 : 0 < S2048x128.numel
  shapeCasts_S2048x128_S2048x128 : S2048x128.ShapeCasts S2048x128
  inb_S512x32_S512x1_0_1 : ∀ a, (![0, 1] : Fin 2 → Nat) a + S512x1.size a ≤ S512x32.size a
  inb_S64048x128_S2048x128_2000_0 : ∀ a, (![2000, 0] : Fin 2 → Nat) a + S2048x128.size a ≤ S64048x128.size a
  inb_S512x32_S512x1_0_2 : ∀ a, (![0, 2] : Fin 2 → Nat) a + S512x1.size a ≤ S512x32.size a
  inb_S64048x128_S2048x128_4000_0 : ∀ a, (![4000, 0] : Fin 2 → Nat) a + S2048x128.size a ≤ S64048x128.size a
  inb_S512x32_S512x1_0_3 : ∀ a, (![0, 3] : Fin 2 → Nat) a + S512x1.size a ≤ S512x32.size a
  inb_S64048x128_S2048x128_6000_0 : ∀ a, (![6000, 0] : Fin 2 → Nat) a + S2048x128.size a ≤ S64048x128.size a
  inb_S512x32_S512x1_0_4 : ∀ a, (![0, 4] : Fin 2 → Nat) a + S512x1.size a ≤ S512x32.size a
  inb_S64048x128_S2048x128_8000_0 : ∀ a, (![8000, 0] : Fin 2 → Nat) a + S2048x128.size a ≤ S64048x128.size a
  inb_S512x32_S512x1_0_5 : ∀ a, (![0, 5] : Fin 2 → Nat) a + S512x1.size a ≤ S512x32.size a
  inb_S64048x128_S2048x128_10000_0 : ∀ a, (![10000, 0] : Fin 2 → Nat) a + S2048x128.size a ≤ S64048x128.size a
  inb_S512x32_S512x1_0_6 : ∀ a, (![0, 6] : Fin 2 → Nat) a + S512x1.size a ≤ S512x32.size a
  inb_S64048x128_S2048x128_12000_0 : ∀ a, (![12000, 0] : Fin 2 → Nat) a + S2048x128.size a ≤ S64048x128.size a
  inb_S512x32_S512x1_0_7 : ∀ a, (![0, 7] : Fin 2 → Nat) a + S512x1.size a ≤ S512x32.size a
  inb_S64048x128_S2048x128_14000_0 : ∀ a, (![14000, 0] : Fin 2 → Nat) a + S2048x128.size a ≤ S64048x128.size a
  inb_S512x32_S512x1_0_8 : ∀ a, (![0, 8] : Fin 2 → Nat) a + S512x1.size a ≤ S512x32.size a
  inb_S64048x128_S2048x128_16000_0 : ∀ a, (![16000, 0] : Fin 2 → Nat) a + S2048x128.size a ≤ S64048x128.size a
  inb_S512x32_S512x1_0_9 : ∀ a, (![0, 9] : Fin 2 → Nat) a + S512x1.size a ≤ S512x32.size a
  inb_S64048x128_S2048x128_18000_0 : ∀ a, (![18000, 0] : Fin 2 → Nat) a + S2048x128.size a ≤ S64048x128.size a
  inb_S512x32_S512x1_0_10 : ∀ a, (![0, 10] : Fin 2 → Nat) a + S512x1.size a ≤ S512x32.size a
  inb_S64048x128_S2048x128_20000_0 : ∀ a, (![20000, 0] : Fin 2 → Nat) a + S2048x128.size a ≤ S64048x128.size a
  inb_S512x32_S512x1_0_11 : ∀ a, (![0, 11] : Fin 2 → Nat) a + S512x1.size a ≤ S512x32.size a
  inb_S64048x128_S2048x128_22000_0 : ∀ a, (![22000, 0] : Fin 2 → Nat) a + S2048x128.size a ≤ S64048x128.size a
  inb_S512x32_S512x1_0_12 : ∀ a, (![0, 12] : Fin 2 → Nat) a + S512x1.size a ≤ S512x32.size a
  inb_S64048x128_S2048x128_24000_0 : ∀ a, (![24000, 0] : Fin 2 → Nat) a + S2048x128.size a ≤ S64048x128.size a
  inb_S512x32_S512x1_0_13 : ∀ a, (![0, 13] : Fin 2 → Nat) a + S512x1.size a ≤ S512x32.size a
  inb_S64048x128_S2048x128_26000_0 : ∀ a, (![26000, 0] : Fin 2 → Nat) a + S2048x128.size a ≤ S64048x128.size a
  inb_S512x32_S512x1_0_14 : ∀ a, (![0, 14] : Fin 2 → Nat) a + S512x1.size a ≤ S512x32.size a
  inb_S64048x128_S2048x128_28000_0 : ∀ a, (![28000, 0] : Fin 2 → Nat) a + S2048x128.size a ≤ S64048x128.size a
  inb_S512x32_S512x1_0_15 : ∀ a, (![0, 15] : Fin 2 → Nat) a + S512x1.size a ≤ S512x32.size a
  inb_S64048x128_S2048x128_30000_0 : ∀ a, (![30000, 0] : Fin 2 → Nat) a + S2048x128.size a ≤ S64048x128.size a
  inb_S512x32_S512x1_0_16 : ∀ a, (![0, 16] : Fin 2 → Nat) a + S512x1.size a ≤ S512x32.size a
  inb_S64048x128_S2048x128_32000_0 : ∀ a, (![32000, 0] : Fin 2 → Nat) a + S2048x128.size a ≤ S64048x128.size a
  inb_S512x32_S512x1_0_17 : ∀ a, (![0, 17] : Fin 2 → Nat) a + S512x1.size a ≤ S512x32.size a
  inb_S64048x128_S2048x128_34000_0 : ∀ a, (![34000, 0] : Fin 2 → Nat) a + S2048x128.size a ≤ S64048x128.size a
  inb_S512x32_S512x1_0_18 : ∀ a, (![0, 18] : Fin 2 → Nat) a + S512x1.size a ≤ S512x32.size a
  inb_S64048x128_S2048x128_36000_0 : ∀ a, (![36000, 0] : Fin 2 → Nat) a + S2048x128.size a ≤ S64048x128.size a
  inb_S512x32_S512x1_0_19 : ∀ a, (![0, 19] : Fin 2 → Nat) a + S512x1.size a ≤ S512x32.size a
  inb_S64048x128_S2048x128_38000_0 : ∀ a, (![38000, 0] : Fin 2 → Nat) a + S2048x128.size a ≤ S64048x128.size a
  inb_S512x32_S512x1_0_20 : ∀ a, (![0, 20] : Fin 2 → Nat) a + S512x1.size a ≤ S512x32.size a
  inb_S64048x128_S2048x128_40000_0 : ∀ a, (![40000, 0] : Fin 2 → Nat) a + S2048x128.size a ≤ S64048x128.size a
  inb_S512x32_S512x1_0_21 : ∀ a, (![0, 21] : Fin 2 → Nat) a + S512x1.size a ≤ S512x32.size a
  inb_S64048x128_S2048x128_42000_0 : ∀ a, (![42000, 0] : Fin 2 → Nat) a + S2048x128.size a ≤ S64048x128.size a
  inb_S512x32_S512x1_0_22 : ∀ a, (![0, 22] : Fin 2 → Nat) a + S512x1.size a ≤ S512x32.size a
  inb_S64048x128_S2048x128_44000_0 : ∀ a, (![44000, 0] : Fin 2 → Nat) a + S2048x128.size a ≤ S64048x128.size a
  inb_S512x32_S512x1_0_23 : ∀ a, (![0, 23] : Fin 2 → Nat) a + S512x1.size a ≤ S512x32.size a
  inb_S64048x128_S2048x128_46000_0 : ∀ a, (![46000, 0] : Fin 2 → Nat) a + S2048x128.size a ≤ S64048x128.size a
  inb_S512x32_S512x1_0_24 : ∀ a, (![0, 24] : Fin 2 → Nat) a + S512x1.size a ≤ S512x32.size a
  inb_S64048x128_S2048x128_48000_0 : ∀ a, (![48000, 0] : Fin 2 → Nat) a + S2048x128.size a ≤ S64048x128.size a
  inb_S512x32_S512x1_0_25 : ∀ a, (![0, 25] : Fin 2 → Nat) a + S512x1.size a ≤ S512x32.size a
  inb_S64048x128_S2048x128_50000_0 : ∀ a, (![50000, 0] : Fin 2 → Nat) a + S2048x128.size a ≤ S64048x128.size a
  inb_S512x32_S512x1_0_26 : ∀ a, (![0, 26] : Fin 2 → Nat) a + S512x1.size a ≤ S512x32.size a
  inb_S64048x128_S2048x128_52000_0 : ∀ a, (![52000, 0] : Fin 2 → Nat) a + S2048x128.size a ≤ S64048x128.size a
  inb_S512x32_S512x1_0_27 : ∀ a, (![0, 27] : Fin 2 → Nat) a + S512x1.size a ≤ S512x32.size a
  inb_S64048x128_S2048x128_54000_0 : ∀ a, (![54000, 0] : Fin 2 → Nat) a + S2048x128.size a ≤ S64048x128.size a
  inb_S512x32_S512x1_0_28 : ∀ a, (![0, 28] : Fin 2 → Nat) a + S512x1.size a ≤ S512x32.size a
  inb_S64048x128_S2048x128_56000_0 : ∀ a, (![56000, 0] : Fin 2 → Nat) a + S2048x128.size a ≤ S64048x128.size a
  inb_S512x32_S512x1_0_29 : ∀ a, (![0, 29] : Fin 2 → Nat) a + S512x1.size a ≤ S512x32.size a
  inb_S64048x128_S2048x128_58000_0 : ∀ a, (![58000, 0] : Fin 2 → Nat) a + S2048x128.size a ≤ S64048x128.size a
  inb_S512x32_S512x1_0_30 : ∀ a, (![0, 30] : Fin 2 → Nat) a + S512x1.size a ≤ S512x32.size a
  inb_S64048x128_S2048x128_60000_0 : ∀ a, (![60000, 0] : Fin 2 → Nat) a + S2048x128.size a ≤ S64048x128.size a
  inb_S512x32_S512x1_0_31 : ∀ a, (![0, 31] : Fin 2 → Nat) a + S512x1.size a ≤ S512x32.size a
  inb_S64048x128_S2048x128_62000_0 : ∀ a, (![62000, 0] : Fin 2 → Nat) a + S2048x128.size a ≤ S64048x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S64000_S1x64000 : S64000.ShapeCasts S1x64000
  inb_S2048x128_S2048x128_0_0 : ∀ a, (![0, 0] : Fin 2 → Nat) a + S2048x128.size a ≤ S2048x128.size a
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S2048x1280 : S1x1280.Broadcasts S2048x1280
  inb_S2048x1280_S2048x1280_0_0 : ∀ a, (![0, 0] : Fin 2 → Nat) a + S2048x1280.size a ≤ S2048x1280.size a
  h_S2048x1280 : 0 < S2048x1280.numel
  dot_S512x2048_S2048x128_S512x128_1_0_0_1_n_n_wf : DotDims.WF S512x2048 S2048x128 S512x128 [1] [0] [0] [1] [] []
  dot_S2048x128_S1280x128_S2048x1280_1_1_0_0_n_n_wf : DotDims.WF S2048x128 S1280x128 S2048x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S2048x32.size a
  hwx0_0 : ∀ i : grid0.Coords, EltTy.bits .i32 = 32 ∨ (Rect.block (s := S2048x32) S512x32.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64048x128.size a ≤ S64048x128.size a
  hwx0_1 : ∀ i : grid0.Coords, EltTy.bits .bf16 = 32 ∨ (Rect.block (s := S64048x128) S64048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S2048x128.size a
  hwx0_3 : ∀ i : grid0.Coords, EltTy.bits .f32 = 32 ∨ (Rect.block (s := S2048x128) S512x128.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S2048x128.size a
  hwx1_0 : ∀ i : grid1.Coords, EltTy.bits .f32 = 32 ∨ (Rect.block (s := S2048x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x128.size a ≤ S64000x128.size a
  hwx1_1 : ∀ i : grid1.Coords, EltTy.bits .bf16 = 32 ∨ (Rect.block (s := S64000x128) S1280x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x64000.size a
  hwx1_2 : ∀ i : grid1.Coords, EltTy.bits .f32 = 32 ∨ (Rect.block (s := S1x64000) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1280.size a ≤ S2048x64000.size a
  hwx1_3 : ∀ i : grid1.Coords, EltTy.bits .f32 = 32 ∨ (Rect.block (s := S2048x64000) S2048x1280.size (cc1_transform_3 i) (hinb1_3 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S2048x128_S1280x128_S2048x1280_1_1_0_0_n_n : DotDims S2048x128 S1280x128 S2048x1280 where
  lhsContracting := [1]
  rhsContracting := [1]
  lhsNonContracting := [0]
  rhsNonContracting := [0]
  lhsBatch := []
  rhsBatch := []
  wf := dot_S2048x128_S1280x128_S2048x1280_1_1_0_0_n_n_wf

abbrev win0_0 : Pipeline.Window sig grid0 :=
  Pipeline.Window.ofSpec (Memref.whole main_v0) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S64048x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2048x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1280x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S2048x1280.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2048x32 : Shape := ⟨2, ![2048, 32]⟩
abbrev S128x64000 : Shape := ⟨2, ![128, 64000]⟩
abbrev S128 : Shape := ⟨1, ![128]⟩
abbrev S64000x128 : Shape := ⟨2, ![64000, 128]⟩
abbrev S64000 : Shape := ⟨1, ![64000]⟩
abbrev S32 : Shape := ⟨1, ![32]⟩
abbrev S1x32 : Shape := ⟨2, ![1, 32]⟩
abbrev S_ : Shape := ⟨0, ![]⟩
abbrev S2048x32x1 : Shape := ⟨3, ![2048, 32, 1]⟩
abbrev S2048x32x128 : Shape := ⟨3, ![2048, 32, 128]⟩
abbrev S2048x128 : Shape := ⟨2, ![2048, 128]⟩
abbrev S1x128 : Shape := ⟨2, ![1, 128]⟩
abbrev S2048x64000 : Shape := ⟨2, ![2048, 64000]⟩
abbrev S1x64000 : Shape := ⟨2, ![1, 64000]⟩

abbrev nBuf : Space → Nat
  | .hbm => 36
  | .vmem => 0
  | .smem => 0
  | _ => 0

abbrev bufTy : (tb : Table) → Fin (tcTables nBuf tb) → BufTy
  | .hbm, ⟨0, _⟩ => ⟨S2048x32, .i32⟩
  | .hbm, ⟨1, _⟩ => ⟨S128x64000, .f32⟩
  | .hbm, ⟨2, _⟩ => ⟨S128, .f32⟩
  | .hbm, ⟨3, _⟩ => ⟨S64000x128, .f32⟩
  | .hbm, ⟨4, _⟩ => ⟨S64000, .f32⟩
  | .hbm, ⟨5, _⟩ => ⟨S32, .i32⟩
  | .hbm, ⟨6, _⟩ => ⟨S1x32, .i32⟩
  | .hbm, ⟨7, _⟩ => ⟨S2048x32, .i32⟩
  | .hbm, ⟨8, _⟩ => ⟨S2048x32, .i32⟩
  | .hbm, ⟨9, _⟩ => ⟨S64000x128, .f32⟩
  | .hbm, ⟨10, _⟩ => ⟨S_, .i32⟩
  | .hbm, ⟨11, _⟩ => ⟨S2048x32, .i32⟩
  | .hbm, ⟨12, _⟩ => ⟨S2048x32, .i1⟩
  | .hbm, ⟨13, _⟩ => ⟨S_, .i32⟩
  | .hbm, ⟨14, _⟩ => ⟨S2048x32, .i32⟩
  | .hbm, ⟨15, _⟩ => ⟨S2048x32, .i32⟩
  | .hbm, ⟨16, _⟩ => ⟨S2048x32, .i32⟩
  | .hbm, ⟨17, _⟩ => ⟨S2048x32x1, .i32⟩
  | .hbm, ⟨18, _⟩ => ⟨S2048x32x128, .f32⟩
  | .hbm, ⟨19, _⟩ => ⟨S_, .f32⟩
  | .hbm, ⟨20, _⟩ => ⟨S2048x128, .f32⟩
  | .hbm, ⟨21, _⟩ => ⟨S1x128, .f32⟩
  | .hbm, ⟨22, _⟩ => ⟨S2048x128, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S_, .f32⟩
  | .hbm, ⟨30, _⟩ => ⟨S2048x128, .f32⟩
  | .hbm, ⟨31, _⟩ => ⟨S2048x128, .f32⟩
  | .hbm, ⟨32, _⟩ => ⟨S2048x64000, .f32⟩
  | .hbm, ⟨33, _⟩ => ⟨S1x64000, .f32⟩
  | .hbm, ⟨34, _⟩ => ⟨S2048x64000, .f32⟩
  | .hbm, ⟨35, _⟩ => ⟨S2048x64000, .f32⟩
  | _, _ => ⟨S2048x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S2048x32_0_1 : S1x32.BroadcastsInDim S2048x32 (![0, 1] : Fin 2 → Fin S2048x32.rank)
  transposes_S128x64000_S64000x128_1_0 : S128x64000.Transposes [1, 0] S64000x128
  bcast_S_S2048x32 : S_.BroadcastsInDim S2048x32 (![] : Fin 0 → Fin S2048x32.rank)
  bcast_S2048x32_S2048x32x1_0_1 : S2048x32.BroadcastsInDim S2048x32x1 (![0, 1] : Fin 2 → Fin S2048x32x1.rank)
  reducesTo_S2048x32x128_S2048x128_d1 : S2048x32x128.ReducesTo [1] S2048x128
  h_S_ : 0 < S_.numel
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  bcast_S64000_S1x64000_1 : S64000.BroadcastsInDim S1x64000 (![1] : Fin 1 → Fin S1x64000.rank)
  bcast_S1x64000_S2048x64000_0_1 : S1x64000.BroadcastsInDim S2048x64000 (![0, 1] : Fin 2 → Fin S2048x64000.rank)
  gather_S64000x128_S2048x32x1_S2048x32x128_2_0_n_n_0_2_1128_wf : GatherDims.WF S64000x128 S2048x32x1 S2048x32x128 [2] [0] [] [0] [] 2 ![1, 128]
  dot_S2048x128_S64000x128_S2048x64000_1_1_0_0_n_n_wf : DotDims.WF S2048x128 S64000x128 S2048x64000 [1] [1] [0] [0] [] []

variable [Facts₀]

def gather_S64000x128_S2048x32x1_S2048x32x128_2_0_n_n_0_2_1128 : GatherDims S64000x128 S2048x32x1 S2048x32x128 where
  offsetDims := [2]
  collapsedSliceDims := [0]
  operandBatchingDims := []
  startIndicesBatchingDims := []
  startIndexMap := [0]
  indexVectorDim := 2
  sliceSizes := ![1, 128]
  wf := gather_S64000x128_S2048x32x1_S2048x32x128_2_0_n_n_0_2_1128_wf
def dot_S2048x128_S64000x128_S2048x64000_1_1_0_0_n_n : DotDims S2048x128 S64000x128 S2048x64000 where
  lhsContracting := [1]
  rhsContracting := [1]
  lhsNonContracting := [0]
  rhsNonContracting := [0]
  lhsBatch := []
  rhsBatch := []
  wf := dot_S2048x128_S64000x128_S2048x64000_1_1_0_0_n_n_wf

class Facts : Prop extends Facts₀ where

variable [Facts]
-- ==== Proof.Spec.lean ====
/-
  The mathematics both programs compute, as two whole-array functions of the argument arrays, on the extended reals.

  The categorical codes `X` are [2048 × 32] 32-bit words, column c of which indexes a vocabulary of 2000 entries; the
  encoder weight `We` is [128 × 64000], whose column 2000·c + x is the embedding of code x of categorical column c.
  ENCODE: y(b, h) = σ( ∑ c < 32, We(h, 2000·c + X(b, c)) + be(h) ) with σ t = 1 / (1 + e^(−t)) the logistic function.
  DECODE: z(b, v) = ∑ h < 128, y(b, h) · Wd(v, h) + bd(v).
  A column position past the table's end reads zero (`encRow`): that is what a zero-padded table holds there, and
  inside the code range the case does not arise.
-/
import Idealize.ShloMosaic.PureOps.Ideal
import Idealize.ShloMosaic.Lib.ValueIdx

noncomputable section

open scoped BigOperators

namespace Cert.Dae

open Idealize.ShloMosaic Idealize.ShloMosaic.ValueIdx

/-- Entry (h, n) of the encoder weight, read as row n of its transpose; zero past the last of the 64000 columns. -/
def encRow (We : FVec Ideal ⟨2, ![128, 64000]⟩ .f32) (h : Fin 128) (n : ℕ) : EReal :=
  if hn : n < 64000 then We (ix2 h ⟨n, hn⟩) else 0

/-- Row n of the zero-padded [64048 × 128] table of embeddings, at hidden unit h; zero past its last row. -/
def padRow (T : FVec Ideal ⟨2, ![64048, 128]⟩ .bf16) (n : ℕ) (h : Fin 128) : EReal :=
  if hn : n < 64048 then T (ix2 ⟨n, hn⟩ h) else 0

/-- The encoder's pre-activation at batch row b and hidden unit h: the 32 selected embedding entries, summed, plus
    the bias. -/
def encPre (X : IVec ⟨2, ![2048, 32]⟩ 32) (We : FVec Ideal ⟨2, ![128, 64000]⟩ .f32) (be : FVec Ideal ⟨1, ![128]⟩ .f32)
    (b : Fin 2048) (h : Fin 128) : EReal :=
  (∑ c : Fin 32, encRow We h (2000 * c.val + (X (ix2 b c)).toNat)) + be (ix1 h)

/-- ENCODE: y = σ(pre-activation), the whole [2048 × 128] array. -/
def encY (X : IVec ⟨2, ![2048, 32]⟩ 32) (We : FVec Ideal ⟨2, ![128, 64000]⟩ .f32) (be : FVec Ideal ⟨1, ![128]⟩ .f32) :
    FVec Ideal ⟨2, ![2048, 128]⟩ .f32 :=
  fun i => Ideal.logistic (encPre X We be (i 0) (i 1))

/-- DECODE: z = y · Wdᵀ + bd, the whole [2048 × 64000] array. -/
def decZ (Y : FVec Ideal ⟨2, ![2048, 128]⟩ .f32) (Wd : FVec Ideal ⟨2, ![64000, 128]⟩ .f32) (bd : FVec Ideal ⟨1, ![64000]⟩ .f32) :
    FVec Ideal ⟨2, ![2048, 64000]⟩ .f32 :=
  fun i => (∑ h : Fin 128, Y (ix2 (i 0) h) * Wd (ix2 (i 1) h)) + bd (ix1 (i 1))

/-- Every categorical code lies in its vocabulary: as an unsigned word it is below 2000 (so as a signed word it is
    non-negative and below 2000). -/
def InRange (X : IVec ⟨2, ![2048, 32]⟩ 32) : Prop := ∀ i, (X i).toNat < 2000

end Cert.Dae

end
-- ==== Proof.KHost.lean ====
/-
  What the host operations around the two regions leave in the buffers the regions read, and where the two results
  end.

  Before the encoder's region the host clamps the codes into [0, 1999] (the identity on codes already in range),
  transposes the encoder weight into a [64000 × 128] table of embeddings and pads it with 48 zero rows, and lays the
  encoder bias out as a row. Between the regions it lays the decoder bias out as a row; the decoder reads the
  encoder's result array as the first region left it. A change of float format is the identity on the extended reals.
-/
import proofs.«421489_j46248207843741_3_alg».proof.Proof.Gen.KernelIdeal.Frame
import proofs.«421489_j46248207843741_3_alg».proof.Proof.Spec
import Idealize.ShloMosaic.Lib.Pipeline.Value
import Idealize.ShloMosaic.Lib.IdealHost
import Idealize.ShloMosaic.Lib.ValueLayout
import Idealize.ShloMosaic.Lib.KernelVsHost

set_option maxRecDepth 16384
noncomputable section

open scoped BigOperators

namespace Cert.KernelIdeal.Host

open Idealize.ShloMosaic Idealize.ShloMosaic.ValueIdx Idealize.ShloMosaic.TcCoe Cert.KernelIdeal Cert.KernelIdeal.Gen Cert.Dae
open Idealize.ShloMosaic.Pipeline (Dat Cfg Window)

variable (m : (ℓ : Loc nD τ sig) → Buf (Elt Ideal) ℓ) (ρ : Dev nD → PrngReg)

/-- No host operation before this point and no region writes argument 3: its buffer holds the launch contents. -/
theorem W6_arg3 (c : Dev nD) : W6 m ρ c (Proc.devRef .tc main_arg3) = m ((c.tc : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg3) := rfl

/-- No host operation before this point and no region writes argument 4: its buffer holds the launch contents. -/
theorem W6_arg4 (c : Dev nD) : W6 m ρ c (Proc.devRef .tc main_arg4) = m ((c.tc : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg4) := rfl

/-- No host operation before this point and no region writes argument 2: its buffer holds the launch contents. -/
theorem W4_arg2 (c : Dev nD) : W4 m ρ c (Proc.devRef .tc main_arg2) = m ((c.tc : Thread nD τ).loc main_arg2) :=
  calc W4 m ρ c (Proc.devRef .tc main_arg2)
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl

/-- No host operation before this point and no region writes argument 1: its buffer holds the launch contents. -/
theorem W2_arg1 (c : Dev nD) : W2 m ρ c (Proc.devRef .tc main_arg1) = m ((c.tc : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg1) := rfl

/-- No host operation before this point and no region writes argument 0: its buffer holds the launch contents. -/
theorem W1_arg0 (c : Dev nD) : W1 m ρ c (Proc.devRef .tc main_arg0) = m ((c.tc : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg0) := rfl

/-- A word whose unsigned value is below 2000 is its own clamp into [0, 1999] as a signed word: read signed it is that
    value, which is not below 0 and not above 1999, so neither the signed maximum with 0 nor the signed minimum with
    1999 moves it. -/
theorem clamp_id (x : BitVec 32) (hx : x.toNat < 2000) :
    IntOp.minsi 1999#32 (IntOp.maxsi 0#32 x) = x := by
  have h0 : x.toInt = (x.toNat : ℤ) := by
    rw [BitVec.toInt_eq_toNat_cond]
    have : 2 * x.toNat < 2 ^ 32 := by omega
    rw [if_pos this]
  have h1 : (0#32 : BitVec 32).toInt = 0 := by decide
  have h2 : (1999#32 : BitVec 32).toInt = 1999 := by decide
  have ha : x.slt 0#32 = false := by
    unfold BitVec.slt; rw [h0, h1]; exact decide_eq_false (by omega)
  have hb : (1999#32 : BitVec 32).slt x = false := by
    unfold BitVec.slt; rw [h2, h0]; exact decide_eq_false (by omega)
  unfold IntOp.maxsi
  rw [ha]
  simp only [Bool.false_eq_true, ↓reduceIte]
  unfold IntOp.minsi
  rw [hb]
  simp only [Bool.false_eq_true, ↓reduceIte]

/-- The codes the encoder's region reads are the argument's own, when every code is in its vocabulary. -/
theorem V5_v0 (c : Dev nD) (hX : InRange (m ((c.tc : Thread nD τ).loc main_arg0))) :
    (V5 m ρ c main_v0 : IVec S2048x32 32) = m ((c.tc : Thread nD τ).loc main_arg0) := by
  -- no later stretch writes the clamped codes' buffer
  have e1 : V5 m ρ c main_v0 = W2 m ρ c (Proc.devRef .tc main_v0) :=
    calc V5 m ρ c main_v0
    _ = W4 m ρ c (Proc.devRef .tc main_v0) := StableHlo.after_of_forall_not_mem (b := Proc.devRef .tc main_v0) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v0) := StableHlo.after_of_forall_not_mem (b := Proc.devRef .tc main_v0) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v0) := StableHlo.after_of_forall_not_mem (b := Proc.devRef .tc main_v0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

  -- the clamp: min (1999 everywhere) (max (0 everywhere) X), X the argument's codes
  have e2 : @Eq (IVec S2048x32 32) (W2 m ρ c (Proc.devRef .tc main_v0))
      (minsi (broadcastInDim S2048x32 ![] bcast_S_S2048x32 (constantI S_ 32 1999#32))
        (maxsi (broadcastInDim S2048x32 ![] bcast_S_S2048x32 (constantI S_ 32 0#32))
          (m ((c.tc : Thread nD τ).loc main_arg0)))) := by
    show StableHlo.after hostOps0_1 (StableHlo.after hostOps0 (W0 m ρ c)) (Proc.devRef .tc main_v0) = _
    after_results
    rfl
  rw [e1, e2]
  funext i
  exact clamp_id _ (hX i)

/-- The padded table the encoder's region reads, row by row: the transposed encoder weight, zero past row 63999. -/
theorem V5_v3 (c : Dev nD) (n : ℕ) (h : Fin 128) :
    padRow (V5 m ρ c main_v3 : FVec Ideal S64048x128 .bf16) n h = encRow (m ((c.tc : Thread nD τ).loc main_arg1)) h n := by
  -- the bias stretch does not write the padded table's buffer
  have e1 : V5 m ρ c main_v3 = W4 m ρ c (Proc.devRef .tc main_v3) :=
    calc V5 m ρ c main_v3
    _ = W4 m ρ c (Proc.devRef .tc main_v3) := StableHlo.after_of_forall_not_mem (b := Proc.devRef .tc main_v3) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

  -- the table: the weight, narrowed, transposed, padded below with 48 rows of the converted word 0
  have e2 : @Eq (FVec Ideal S64048x128 .bf16) (W4 m ρ c (Proc.devRef .tc main_v3))
      (pad S64048x128 ![0, 0] ![48, 0] ![0, 0]
        (transpose S64000x128 [1, 0]
          (truncf .bf16 (W2 m ρ c (Proc.devRef .tc main_arg1) : FVec Ideal S128x64000 .f32) bitsLt_bf16_f32)
          transposes_S128x64000_S64000x128_1_0)
        (sitofp (F := Ideal) .bf16 (constantI S_ 32 0#32)) pads_S64000x128_S64048x128_0480_000 h_S_) := by
    show StableHlo.after hostOps0_3 (StableHlo.after hostOps0_2 (W2 m ρ c)) (Proc.devRef .tc main_v3) = _
    after_results
    rfl
  rw [e1, e2, W2_arg1 m ρ c]
  unfold padRow encRow
  by_cases hn : n < 64000
  · -- a row of the operand: entry (n, h) of the transpose is entry (h, n) of the weight
    have hn' : n < 64048 := by omega
    rw [dif_pos hn', dif_pos hn]
    refine (pad_apply_of_inside _ _ _ _ _ _ _ (ix2 ⟨n, hn'⟩ h) (ix2 ⟨n, hn⟩ h) ?_).trans ?_
    · intro a
      match a with
      | ⟨0, _⟩ => show n = 0 + n * (0 + 1); omega
      | ⟨1, _⟩ => show h.val = 0 + h.val * (0 + 1); omega
    · exact (transpose_ix2_apply _ _ ⟨n, hn⟩ h).trans rfl
  · by_cases hn' : n < 64048
    · -- a padding row: the word 0 converted, which is 0
      rw [dif_pos hn', dif_neg hn]
      refine (pad_apply_of_not_inside _ _ _ _ _ _ _ (ix2 ⟨n, hn'⟩ h) ⟨0, by decide⟩ ?_).trans ?_
      · intro hh
        have h3 := hh.2.2
        change (n - 0) / (0 + 1) < 64000 at h3
        omega
      · exact sitofp_zero (φ := .bf16)
    · -- past the table's last row both sides read 0
      rw [dif_neg hn', dif_neg hn]

/-- The bias row the encoder's region reads. -/
theorem V5_v4 (c : Dev nD) (h : Fin 128) :
    (V5 m ρ c main_v4 : FVec Ideal S1x128 .f32) (ix2 0 h) = (m ((c.tc : Thread nD τ).loc main_arg2) : FVec Ideal S128 .f32) (ix1 h) := by
  have e : @Eq (FVec Ideal S1x128 .f32) (V5 m ρ c main_v4)
      (shapeCast S1x128 (W4 m ρ c (Proc.devRef .tc main_arg2) : FVec Ideal S128 .f32) shapeCasts_S128_S1x128) := by
    show StableHlo.after hostOps0_4 _ (Proc.devRef .tc main_v4) = _
    after_results
    rfl
  rw [e, W4_arg2 m ρ c]
  exact shapeCast_a_1a_apply _ _ 0 h

/-- The decoder's region reads the encoder's result array as the first region left it. -/
theorem V7_v5 (c : Dev nD) :
    (V7 m ρ c main_v5 : FVec Ideal S2048x128 .f32) = (dat0 (F := Ideal) (V5 m ρ) c).arrAt 3 cfg0.N := by
  calc (V7 m ρ c main_v5 : FVec Ideal S2048x128 .f32)
    _ = W6 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (F := Ideal) (V5 m ρ) c).arrAt 3 cfg0.N := W6_arr m ρ c 3

/-- The decoder weight the decoder's region reads is the argument's own. -/
theorem V7_v6 (c : Dev nD) (v : Fin 64000) (h : Fin 128) :
    (V7 m ρ c main_v6 : FVec Ideal S64000x128 .bf16) (ix2 v h) = (m ((c.tc : Thread nD τ).loc main_arg3) : FVec Ideal S64000x128 .f32) (ix2 v h) := by
  have e : @Eq (FVec Ideal S64000x128 .bf16) (V7 m ρ c main_v6)
      (truncf .bf16 (W6 m ρ c (Proc.devRef .tc main_arg3) : FVec Ideal S64000x128 .f32) bitsLt_bf16_f32) := by
    show StableHlo.after hostOps1 _ (Proc.devRef .tc main_v6) = _
    after_results
  rw [e, W6_arg3 m ρ c]
  rfl

/-- The bias row the decoder's region reads. -/
theorem V7_v7 (c : Dev nD) (v : Fin 64000) :
    (V7 m ρ c main_v7 : FVec Ideal S1x64000 .f32) (ix2 0 v) = (m ((c.tc : Thread nD τ).loc main_arg4) : FVec Ideal S64000 .f32) (ix1 v) := by
  have e : @Eq (FVec Ideal S1x64000 .f32) (V7 m ρ c main_v7)
      (shapeCast S1x64000 (W6 m ρ c (Proc.devRef .tc main_arg4) : FVec Ideal S64000 .f32) shapeCasts_S64000_S1x64000) := by
    show StableHlo.after hostOps1 _ (Proc.devRef .tc main_v7) = _
    after_results
    rfl
  rw [e, W6_arg4 m ρ c]
  exact shapeCast_a_1a_apply _ _ 0 v

/-- The first result ends as the encoder's region left it. -/
theorem W8_v5 (c : Dev nD) :
    (W8 m ρ c (Proc.devRef .tc main_v5) : FVec Ideal S2048x128 .f32) = (dat0 (F := Ideal) (V5 m ρ) c).arrAt 3 cfg0.N := by
  calc (W8 m ρ c (Proc.devRef .tc main_v5) : FVec Ideal S2048x128 .f32)
    _ = (dat1 (F := Ideal) (V7 m ρ) c).arrAt 0 cfg1.N := W8_arr m ρ c 0
    _ = (dat1 (F := Ideal) (V7 m ρ) c).A 0 := Pipeline.Dat.arrAt_in (dat := dat1 (F := Ideal) (V7 m ρ) c) 0 (by decide) cfg1.N
    _ = V7 m ρ c main_v5 := A_eq1 (V7 m ρ) c 0
    _ = (dat0 (F := Ideal) (V5 m ρ) c).arrAt 3 cfg0.N := V7_v5 m ρ c

/-- The second result ends as the decoder's region left it. -/
theorem W8_v8 (c : Dev nD) :
    (W8 m ρ c (Proc.devRef .tc main_v8) : FVec Ideal S2048x64000 .f32) = (dat1 (F := Ideal) (V7 m ρ) c).arrAt 3 cfg1.N := by
  exact W8_arr m ρ c 3

end Cert.KernelIdeal.Host

end
-- ==== Proof.LibRowProducts.lean ====
/-
  A plain matrix product read at one entry.

  For dimension numbers that contract the left operand's axis 1 with the right operand's axis 0, keep the left
  operand's axis 0 and the right operand's axis 1, and batch nothing, the operand indices at result entry (r, c) and
  contraction position k are (r, k) and (k, c). So both the accumulate-into-zero `tpu.matmul` and the host's
  `dot_general` are, at the ideal values, the entry's plain sum  ∑ q < K, l (r, q) · w (q, c)  over the shared axis:
  the same extended real whatever the number of rows of the left operand. This is the one fact that identifies a
  product computed a block of rows at a time with the product of the whole array.
-/
import Idealize.ShloMosaic.PureOps.Ideal.Laws
import Idealize.ShloMosaic.Lib.ValueIdx

noncomputable section

open scoped BigOperators

namespace Cert.Lib.RowProducts

open Idealize.ShloMosaic Idealize.ShloMosaic.ValueIdx

variable {n K c : Nat}

/-- Dimension numbers of a plain product [n, K] × [K, c] → [n, c]: contract left axis 1 with right axis 0, rows from
    the left, columns from the right, no batch axis. -/
structure Plain (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

private theorem val_congr {s : Shape} (j : s.Idx) (p q : Nat) (hp : p < s.rank) (hq : q < s.rank) (h : p = q) :
    (j ⟨p, hp⟩).val = (j ⟨q, hq⟩).val := by subst h; rfl

theorem Plain.rank_contr (h : Plain d) : d.contr.rank = 1 := by rw [d.rank_contr, h.lc]; rfl

theorem Plain.size_contr (h : Plain d) : d.contr.size ⟨0, by rw [h.rank_contr]; exact Nat.one_pos⟩ = K := by
  have := d.size_contr 0 (by rw [h.lc]; exact Nat.one_pos)
  rw [this]; simp only [h.lc]; rfl

/-- The left operand's row is the result's row. -/
theorem Plain.lhs_row (h : Plain d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem Plain.lhs_col (h : Plain d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem Plain.rhs_row (h : Plain d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem Plain.rhs_col (h : Plain d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, c). -/
theorem Plain.sum_eq (h : Plain d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  rw [← Equiv.sum_comp (contrEquiv1 d K h.rank_contr h.size_contr).symm]
  refine Finset.sum_congr rfl fun q _ => ?_
  have hk := contrEquiv1_symm_val d K h.rank_contr h.size_contr q
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values. -/
theorem Plain.matmul_zero_apply (h : Plain d) (prec : Option ContractPrecision)
    (l : FVec Ideal ⟨2, ![n, K]⟩ .f32) (w : FVec Ideal ⟨2, ![K, c]⟩ .f32) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem Plain.dotGeneral_apply (h : Plain d) (prec : Option ContractPrecision)
    (l : FVec Ideal ⟨2, ![n, K]⟩ .f32) (w : FVec Ideal ⟨2, ![K, c]⟩ .f32) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.RowProducts

end
-- ==== Proof.KEncTerm.lean ====
/-
  One categorical column's contribution to a block of 512 batch rows.

  The block's 512 codes of one column are compared with the positions 0 … 2047 of a window of table rows: the
  comparison's 0/1 array, as numbers, is the one-hot array of the codes, and its product with the window's
  [2048 × 128] rows picks, for batch row r, the window's row number code(r) — as long as that code is below 2048.
-/
import proofs.«421489_j46248207843741_3_alg».proof.Proof.Gen.KernelIdeal.Skeleton
import proofs.«421489_j46248207843741_3_alg».proof.Proof.LibRowProducts
import Idealize.ShloMosaic.Lib.Pipeline.Value

noncomputable section

open scoped BigOperators

namespace Cert.KernelIdeal.Enc

open Idealize.ShloMosaic Idealize.ShloMosaic.ValueIdx Cert.KernelIdeal Cert.KernelIdeal.Gen

/-- The one-hot array of a column's 512 codes over 2048 positions, times a window of 2048 table rows. -/
def colTerm (idx : Vec Ideal S512x1 .i32) (w : Vec Ideal S2048x128 .bf16) : FVec Ideal S512x128 .f32 :=
  matmul dot_S512x2048_S2048x128_S512x128_1_0_0_1_n_n none
    (truncf .bf16 (sitofp .f32 (extui 32 (cmpi .eq (iota .tc S512x2048 32 [1] iota_S512x2048_d1_w32)
      (broadcastTo S512x2048 (shapeCast S512x1 idx shapeCasts_S512x1_S512x1 : IVec S512x1 32) broadcasts_S512x1_S512x2048 : IVec S512x2048 32)
        : IVec S512x2048 1) natLt_1_32 : IVec S512x2048 32) : FVec Ideal S512x2048 .f32) bitsLt_bf16_f32 : FVec Ideal S512x2048 .bf16)
    (shapeCast S2048x128 w shapeCasts_S2048x128_S2048x128 : FVec Ideal S2048x128 .bf16) (constant S512x128 .f32 0x00000000#32)

/-- The dimension numbers of the product are the plain ones: rows from the left, columns from the right, one shared axis. -/
theorem plain_d : Cert.Lib.RowProducts.Plain dot_S512x2048_S2048x128_S512x128_1_0_0_1_n_n := ⟨rfl, rfl, rfl, rfl, rfl, rfl⟩

/-- The broadcast column of codes at (r, q) is the code of row r. -/
theorem codes_apply (idx : Vec Ideal S512x1 .i32) (r : Fin 512) (q : Fin 2048) :
    (broadcastTo S512x2048 (shapeCast S512x1 idx shapeCasts_S512x1_S512x1 : IVec S512x1 32) broadcasts_S512x1_S512x2048 : IVec S512x2048 32) (ix2 r q)
      = idx (ix2 r 0) := by
  rw [shapeCast_self]
  refine broadcastTo_apply (s := S512x1) (t := S512x2048) idx broadcasts_S512x1_S512x2048 (ix2 r q) (ix2 r 0) fun a => ?_
  match a with
  | ⟨0, _⟩ => rfl
  | ⟨1, _⟩ => rfl

/-- The position array at (r, q) is the word q. -/
theorem pos_apply (r : Fin 512) (q : Fin 2048) :
    iota .tc S512x2048 32 [1] iota_S512x2048_d1_w32 (ix2 r q) = BitVec.ofNat 32 q.val :=
  iota_single_apply .tc S512x2048 32 1 iota_S512x2048_d1_w32 (ix2 r q)

/-- The equality bit of two words, widened to a word and converted, is the number 1 when they are equal and 0 otherwise. -/
theorem bit_to_float (a c : BitVec 32) :
    (FloatOps.sitofp FTy.f32 (BitVec.setWidth 32 (IntOp.cmpi .eq a c)) : Ideal .f32) = if a = c then (1 : EReal) else 0 := by
  by_cases hac : a = c
  · rw [if_pos hac]
    have ht : (a == c) = true := beq_iff_eq.mpr hac
    have hb : IntOp.cmpi .eq a c = 1#1 := by simp only [IntOp.cmpi, ht]; rfl
    rw [hb]
    show ((((BitVec.setWidth 32 1#1 : BitVec 32).toInt : ℤ) : ℝ) : EReal) = 1
    have h1 : (BitVec.setWidth 32 1#1 : BitVec 32).toInt = 1 := by decide
    rw [h1]; norm_num
  · rw [if_neg hac]
    have hf : (a == c) = false := beq_eq_false_iff_ne.mpr hac
    have hb : IntOp.cmpi .eq a c = 0#1 := by simp only [IntOp.cmpi, hf]; rfl
    rw [hb]
    show ((((BitVec.setWidth 32 0#1 : BitVec 32).toInt : ℤ) : ℝ) : EReal) = 0
    have h0 : (BitVec.setWidth 32 0#1 : BitVec 32).toInt = 0 := by decide
    rw [h0]; norm_num

/-- One entry of the one-hot array: 1 where the position is the row's code, 0 elsewhere. -/
theorem onehot_apply (idx : Vec Ideal S512x1 .i32) (r : Fin 512) (q : Fin 2048) :
    (truncf .bf16 (sitofp .f32 (extui 32 (cmpi .eq (iota .tc S512x2048 32 [1] iota_S512x2048_d1_w32)
      (broadcastTo S512x2048 (shapeCast S512x1 idx shapeCasts_S512x1_S512x1 : IVec S512x1 32) broadcasts_S512x1_S512x2048 : IVec S512x2048 32)
        : IVec S512x2048 1) natLt_1_32 : IVec S512x2048 32) : FVec Ideal S512x2048 .f32) bitsLt_bf16_f32 : FVec Ideal S512x2048 .bf16) (ix2 r q)
      = if BitVec.ofNat 32 q.val = idx (ix2 r 0) then (1 : EReal) else 0 := by
  rw [truncf_apply, sitofp_apply, extui_apply]
  show FloatOps.sitofp FTy.f32 (BitVec.setWidth 32 (IntOp.cmpi .eq (iota .tc S512x2048 32 [1] iota_S512x2048_d1_w32 (ix2 r q))
    ((broadcastTo S512x2048 (shapeCast S512x1 idx shapeCasts_S512x1_S512x1 : IVec S512x1 32) broadcasts_S512x1_S512x2048 : IVec S512x2048 32) (ix2 r q)))) = _
  rw [pos_apply, codes_apply]
  exact bit_to_float _ _

/-- A 32-bit word is the word of its own unsigned value. -/
theorem ofNat_toNat_word (c : BitVec 32) : BitVec.ofNat 32 c.toNat = c := by
  apply BitVec.eq_of_toNat_eq
  rw [BitVec.toNat_ofNat]
  exact Nat.mod_eq_of_lt c.isLt

/-- A position below 2048 whose word is the code is the code's unsigned value. -/
theorem eq_toNat_of_word_eq (q : Nat) (hq : q < 2048) (c : BitVec 32) (hqc : BitVec.ofNat 32 q = c) : q = c.toNat := by
  rw [← hqc, BitVec.toNat_ofNat]
  exact (Nat.mod_eq_of_lt (by omega)).symm

/-- At batch row r and hidden unit h the product is the window's row number code(r), when that code is below 2048. -/
theorem colTerm_apply (idx : Vec Ideal S512x1 .i32) (w : Vec Ideal S2048x128 .bf16) (r : Fin 512) (h : Fin 128)
    (hlt : BitVec.toNat (idx (ix2 r 0)) < 2048) :
    colTerm idx w (ix2 r h) = w (ix2 ⟨BitVec.toNat (idx (ix2 r 0)), hlt⟩ h) := by
  unfold colTerm
  -- the product into the zero accumulator at (r, h) is the sum over the 2048 positions of one-hot entry times window entry
  refine (Ideal.matmul_constant_zero_apply dot_S512x2048_S2048x128_S512x128_1_0_0_1_n_n none _ _ (ix2 r h)).trans ?_
  refine (plain_d.sum_eq _ _ (ix2 r h)).trans ?_
  refine (Finset.sum_congr rfl fun q _ => congrArg₂ (· * ·) (onehot_apply idx r q)
    (congrFun (shapeCast_self w shapeCasts_S2048x128_S2048x128) (ix2 q h))).trans ?_
  -- exactly one position carries the factor 1: the code's own
  rw [Finset.sum_eq_single (⟨BitVec.toNat (idx (ix2 r 0)), hlt⟩ : Fin 2048)]
  · rw [if_pos (ofNat_toNat_word (idx (ix2 r 0))), one_mul]
  · intro q _ hne
    rw [if_neg (fun hqc => hne (Fin.ext (eq_toNat_of_word_eq q.val q.isLt (idx (ix2 r 0)) hqc))), zero_mul]
  · intro hn
    exact absurd (Finset.mem_univ _) hn

end Cert.KernelIdeal.Enc

end
-- ==== Proof.KEncBody.lean ====
/-
  What the encoder's body leaves in its output block, at an entry.

  From a block of 512 batch rows of codes, the zero-padded table of embeddings and the bias row, the body adds up,
  column by column, the one-hot product of the column's codes with the column's window of 2048 table rows (the
  window of column c starts at table row 2000·c), adds the bias and applies the logistic function. With every code
  below 2000 the entry at batch row r and hidden unit h is therefore
  σ( ∑ c < 32, table(2000·c + code(r, c), h) + bias(h) ).
-/
import proofs.«421489_j46248207843741_3_alg».proof.Proof.Gen.KernelIdeal.Frame
import proofs.«421489_j46248207843741_3_alg».proof.Proof.KEncTerm
import proofs.«421489_j46248207843741_3_alg».proof.Proof.Spec

noncomputable section

open scoped BigOperators

namespace Cert.KernelIdeal.Enc

open Idealize.ShloMosaic Idealize.ShloMosaic.ValueIdx Cert.KernelIdeal Cert.KernelIdeal.Gen Cert.Dae

/-- The accumulator the column loop starts from: the all-zero block. -/
def zeroAcc : FVec Ideal S512x128 .f32 := broadcast S512x128 (Scalar.ofBits (F := Ideal) .f32 0x00000000#32)

/-! The loop over the 32 columns is cut into payloads at irregular places. Each payload below is the running sum it
    receives, continued by the terms of its three or four columns; where a column's one-hot array was begun in the
    payload before (its comparison, or its conversion to numbers), the two together are that column's term. The last
    payload adds the bias row and applies the logistic function. All by unfolding. -/

theorem pay2_eq (i0 : Vec Ideal S512x1 .i32) (w0 : Vec Ideal S2048x128 .bf16) (i1 : Vec Ideal S512x1 .i32) (w1 : Vec Ideal S2048x128 .bf16) (i2 : Vec Ideal S512x1 .i32) (w2 : Vec Ideal S2048x128 .bf16) :
    k0_pay2 (F := Ideal) i0 w0 i1 w1 i2 w2 = addf (addf (addf (zeroAcc) (colTerm i0 w0)) (colTerm i1 w1)) (colTerm i2 w2) := rfl

theorem pay4_eq (acc : FVec Ideal S512x128 .f32) (i0 : Vec Ideal S512x1 .i32) (w0 : Vec Ideal S2048x128 .bf16) (i1 : Vec Ideal S512x1 .i32) (w1 : Vec Ideal S2048x128 .bf16) (i2 : Vec Ideal S512x1 .i32) (w2 : Vec Ideal S2048x128 .bf16) (i3 : Vec Ideal S512x1 .i32) (w3 : Vec Ideal S2048x128 .bf16) :
    k0_pay4 (F := Ideal) (iota .tc S512x2048 32 [1] iota_S512x2048_d1_w32) acc (k0_pay3 i0) w0 i1 w1 i2 w2 i3 w3
      = addf (addf (addf (addf (acc) (colTerm i0 w0)) (colTerm i1 w1)) (colTerm i2 w2)) (colTerm i3 w3) := rfl

theorem pay6_eq (acc : FVec Ideal S512x128 .f32) (i0 : Vec Ideal S512x1 .i32) (w0 : Vec Ideal S2048x128 .bf16) (i1 : Vec Ideal S512x1 .i32) (w1 : Vec Ideal S2048x128 .bf16) (i2 : Vec Ideal S512x1 .i32) (w2 : Vec Ideal S2048x128 .bf16) (i3 : Vec Ideal S512x1 .i32) (w3 : Vec Ideal S2048x128 .bf16) :
    k0_pay6 (F := Ideal) (iota .tc S512x2048 32 [1] iota_S512x2048_d1_w32) acc (k0_pay5 i0) w0 i1 w1 i2 w2 i3 w3
      = addf (addf (addf (addf (acc) (colTerm i0 w0)) (colTerm i1 w1)) (colTerm i2 w2)) (colTerm i3 w3) := rfl

theorem pay7_eq (acc : FVec Ideal S512x128 .f32) (i0 : Vec Ideal S512x1 .i32) (w0 : Vec Ideal S2048x128 .bf16) (i1 : Vec Ideal S512x1 .i32) (w1 : Vec Ideal S2048x128 .bf16) (i2 : Vec Ideal S512x1 .i32) (w2 : Vec Ideal S2048x128 .bf16) :
    k0_pay7 (F := Ideal) (iota .tc S512x2048 32 [1] iota_S512x2048_d1_w32) acc i0 w0 i1 w1 i2 w2 = addf (addf (addf (acc) (colTerm i0 w0)) (colTerm i1 w1)) (colTerm i2 w2) := rfl

theorem pay9_eq (acc : FVec Ideal S512x128 .f32) (i0 : Vec Ideal S512x1 .i32) (w0 : Vec Ideal S2048x128 .bf16) (i1 : Vec Ideal S512x1 .i32) (w1 : Vec Ideal S2048x128 .bf16) (i2 : Vec Ideal S512x1 .i32) (w2 : Vec Ideal S2048x128 .bf16) (i3 : Vec Ideal S512x1 .i32) (w3 : Vec Ideal S2048x128 .bf16) :
    k0_pay9 (F := Ideal) (iota .tc S512x2048 32 [1] iota_S512x2048_d1_w32) acc (k0_pay8 (iota .tc S512x2048 32 [1] iota_S512x2048_d1_w32) i0) w0 i1 w1 i2 w2 i3 w3
      = addf (addf (addf (addf (acc) (colTerm i0 w0)) (colTerm i1 w1)) (colTerm i2 w2)) (colTerm i3 w3) := rfl

theorem pay11_eq (acc : FVec Ideal S512x128 .f32) (i0 : Vec Ideal S512x1 .i32) (w0 : Vec Ideal S2048x128 .bf16) (i1 : Vec Ideal S512x1 .i32) (w1 : Vec Ideal S2048x128 .bf16) (i2 : Vec Ideal S512x1 .i32) (w2 : Vec Ideal S2048x128 .bf16) (i3 : Vec Ideal S512x1 .i32) (w3 : Vec Ideal S2048x128 .bf16) :
    k0_pay11 (F := Ideal) (iota .tc S512x2048 32 [1] iota_S512x2048_d1_w32) acc (k0_pay10 (iota .tc S512x2048 32 [1] iota_S512x2048_d1_w32) i0) w0 i1 w1 i2 w2 i3 w3
      = addf (addf (addf (addf (acc) (colTerm i0 w0)) (colTerm i1 w1)) (colTerm i2 w2)) (colTerm i3 w3) := rfl

theorem pay13_eq (acc : FVec Ideal S512x128 .f32) (i0 : Vec Ideal S512x1 .i32) (w0 : Vec Ideal S2048x128 .bf16) (i1 : Vec Ideal S512x1 .i32) (w1 : Vec Ideal S2048x128 .bf16) (i2 : Vec Ideal S512x1 .i32) (w2 : Vec Ideal S2048x128 .bf16) (i3 : Vec Ideal S512x1 .i32) (w3 : Vec Ideal S2048x128 .bf16) :
    k0_pay13 (F := Ideal) (iota .tc S512x2048 32 [1] iota_S512x2048_d1_w32) acc (k0_pay12 i0) w0 i1 w1 i2 w2 i3 w3
      = addf (addf (addf (addf (acc) (colTerm i0 w0)) (colTerm i1 w1)) (colTerm i2 w2)) (colTerm i3 w3) := rfl

theorem pay14_eq (acc : FVec Ideal S512x128 .f32) (i0 : Vec Ideal S512x1 .i32) (w0 : Vec Ideal S2048x128 .bf16) (i1 : Vec Ideal S512x1 .i32) (w1 : Vec Ideal S2048x128 .bf16) (i2 : Vec Ideal S512x1 .i32) (w2 : Vec Ideal S2048x128 .bf16) :
    k0_pay14 (F := Ideal) (iota .tc S512x2048 32 [1] iota_S512x2048_d1_w32) acc i0 w0 i1 w1 i2 w2 = addf (addf (addf (acc) (colTerm i0 w0)) (colTerm i1 w1)) (colTerm i2 w2) := rfl

theorem pay1_eq (acc : FVec Ideal S512x128 .f32) (i0 : Vec Ideal S512x1 .i32) (w0 : Vec Ideal S2048x128 .bf16) (i1 : Vec Ideal S512x1 .i32) (w1 : Vec Ideal S2048x128 .bf16) (i2 : Vec Ideal S512x1 .i32) (w2 : Vec Ideal S2048x128 .bf16) (b : Vec Ideal S1x128 .f32) :
    k0_pay1 (F := Ideal) (iota .tc S512x2048 32 [1] iota_S512x2048_d1_w32) acc (k0_pay15 (iota .tc S512x2048 32 [1] iota_S512x2048_d1_w32) i0) w0 i1 w1 i2 w2 b
      = logistic (addf (addf (addf (addf (acc) (colTerm i0 w0)) (colTerm i1 w1)) (colTerm i2 w2))
          (broadcastTo S512x128 (shapeCast S1x128 b shapeCasts_S1x128_S1x128 : FVec Ideal S1x128 .f32) broadcasts_S1x128_S512x128)) := rfl

/-- Column k's selected table entry at batch row r and hidden unit h: row 2000·k + code(r, k) of the padded table
    (zero for a column number past the 32 columns, which the sum never reaches). -/
def colSel (x0 : Vec Ideal S512x32 .i32) (x1 : Vec Ideal S64048x128 .bf16) (r : Fin 512) (h : Fin 128) (k : ℕ) : EReal :=
  if hk : k < 32 then padRow x1 (2000 * k + BitVec.toNat (x0 (ix2 r ⟨k, hk⟩))) h else 0

/-- The [512 × 1] column at offset (0, k) of the block of codes, at batch row r, is the block's entry (r, k). -/
theorem ld_codes (x0 : Vec Ideal S512x32 .i32) (k : ℕ) (hk : k < 32)
    (inb : ∀ a, (![0, k] : Fin 2 → ℕ) a + S512x1.size a ≤ S512x32.size a) (r : Fin 512) :
    View.ld x0 (Rect.unit (s := S512x32) ![0, k] S512x1.size inb) (ix2 r 0) = x0 (ix2 r ⟨k, hk⟩) := by
  show x0 _ = x0 _
  refine congrArg x0 (funext fun a => Fin.ext ?_)
  match a with
  | ⟨0, _⟩ => show 0 + 1 * r.val = r.val; omega
  | ⟨1, _⟩ => show k + 1 * 0 = k; omega

/-- The [2048 × 128] window at offset (o, 0) of the padded table, at window row q and hidden unit h, is the table's
    entry (o + q, h). -/
theorem ld_window (x1 : Vec Ideal S64048x128 .bf16) (o : ℕ)
    (inb : ∀ a, (![o, 0] : Fin 2 → ℕ) a + S2048x128.size a ≤ S64048x128.size a) (q : Fin 2048) (h : Fin 128)
    (hq : o + q.val < 64048) :
    View.ld x1 (Rect.unit (s := S64048x128) ![o, 0] S2048x128.size inb) (ix2 q h) = x1 (ix2 ⟨o + q.val, hq⟩ h) := by
  show x1 _ = x1 _
  refine congrArg x1 (funext fun a => Fin.ext ?_)
  match a with
  | ⟨0, _⟩ => show o + 1 * q.val = o + q.val; omega
  | ⟨1, _⟩ => show 0 + 1 * h.val = h.val; omega

/-- One column's term at (r, h): the one-hot product picks window row code(r, k), which is table row 2000·k + code(r, k);
    the code is below 2000, so the row is inside both the window and the table. -/
theorem col_read (x0 : Vec Ideal S512x32 .i32) (x1 : Vec Ideal S64048x128 .bf16)
    (hx : ∀ i, BitVec.toNat (x0 i) < 2000) (r : Fin 512) (h : Fin 128) (k : ℕ) (hk : k < 32) (o : ℕ) (ho : o = 2000 * k)
    (inb0 : ∀ a, (![0, k] : Fin 2 → ℕ) a + S512x1.size a ≤ S512x32.size a)
    (inb1 : ∀ a, (![o, 0] : Fin 2 → ℕ) a + S2048x128.size a ≤ S64048x128.size a) :
    colTerm (View.ld x0 (Rect.unit (s := S512x32) ![0, k] S512x1.size inb0))
        (View.ld x1 (Rect.unit (s := S64048x128) ![o, 0] S2048x128.size inb1)) (ix2 r h)
      = colSel x0 x1 r h k := by
  have hc : BitVec.toNat (View.ld x0 (Rect.unit (s := S512x32) ![0, k] S512x1.size inb0) (ix2 r 0))
      = BitVec.toNat (x0 (ix2 r ⟨k, hk⟩)) := congrArg BitVec.toNat (ld_codes x0 k hk inb0 r)
  have hb := hx (ix2 r ⟨k, hk⟩)
  have hlt : BitVec.toNat (View.ld x0 (Rect.unit (s := S512x32) ![0, k] S512x1.size inb0) (ix2 r 0)) < 2048 := by omega
  have hq : o + BitVec.toNat (View.ld x0 (Rect.unit (s := S512x32) ![0, k] S512x1.size inb0) (ix2 r 0)) < 64048 := by omega
  have hn : 2000 * k + BitVec.toNat (x0 (ix2 r ⟨k, hk⟩)) < 64048 := by omega
  rw [colTerm_apply _ _ r h hlt, ld_window x1 o inb1 ⟨_, hlt⟩ h hq]
  unfold colSel padRow
  rw [dif_pos hk, dif_pos hn]
  exact congrArg (fun n : Fin 64048 => x1 (ix2 n h)) (Fin.ext (by
    show o + BitVec.toNat (View.ld x0 (Rect.unit (s := S512x32) ![0, k] S512x1.size inb0) (ix2 r 0))
      = 2000 * k + BitVec.toNat (x0 (ix2 r ⟨k, hk⟩))
    omega))

/-- The all-zero block holds 0 everywhere. -/
theorem zeroAcc_apply (i : S512x128.Idx) : zeroAcc i = 0 := by
  show Ideal.ofBits .f32 0x00000000#32 = 0
  exact Ideal.ofBits_zero_f32

/-- The bias row broadcast over the 512 batch rows, at (r, h), is the bias of hidden unit h. -/
theorem bias_apply (x2 : Vec Ideal S1x128 .f32) (r : Fin 512) (h : Fin 128) :
    broadcastTo S512x128 (shapeCast S1x128 x2 shapeCasts_S1x128_S1x128 : FVec Ideal S1x128 .f32) broadcasts_S1x128_S512x128 (ix2 r h)
      = x2 (ix2 0 h) := by
  rw [shapeCast_self]
  exact broadcastTo_apply x2 _ (ix2 r h) (ix2 0 h) (fun a => by
    match a with
    | ⟨0, _⟩ => rfl
    | ⟨1, _⟩ => rfl)

/-- A sum over the 32 columns, written out from the left in the order the loop adds them, starting from 0. -/
theorem sum_cols (g : ℕ → EReal) :
    (∑ c : Fin 32, g c.val) = 0 + g 0 + g 1 + g 2 + g 3 + g 4 + g 5 + g 6 + g 7 + g 8 + g 9 + g 10 + g 11 + g 12 + g 13 + g 14 + g 15 + g 16 + g 17 + g 18 + g 19 + g 20 + g 21 + g 22 + g 23 + g 24 + g 25 + g 26 + g 27 + g 28 + g 29 + g 30 + g 31 := by
  rw [Fin.sum_univ_eq_sum_range g 32]
  simp only [Finset.sum_range_succ, Finset.sum_range_zero]

/-- The encoder body's output block at batch row r and hidden unit h, every code of the block below 2000. -/
theorem out0_3_apply (x0 : Vec Ideal S512x32 .i32) (x1 : Vec Ideal S64048x128 .bf16) (x2 : Vec Ideal S1x128 .f32)
    (hx : ∀ i, BitVec.toNat (x0 i) < 2000) (r : Fin 512) (h : Fin 128) :
    out0_3 (F := Ideal) x0 x1 x2 (ix2 r h)
      = Ideal.logistic ((∑ c : Fin 32, padRow x1 (2000 * c.val + BitVec.toNat (x0 (ix2 r c))) h) + x2 (ix2 0 h)) := by
  have hz : (![0, 0] : Fin 2 → ℕ) = fun _ => 0 := by
    funext a
    match a with
    | ⟨0, _⟩ => rfl
    | ⟨1, _⟩ => rfl
  -- the specification's sum, column by column in the loop's order
  have hsum : (∑ c : Fin 32, padRow x1 (2000 * c.val + BitVec.toNat (x0 (ix2 r c))) h)
      = ∑ c : Fin 32, colSel x0 x1 r h c.val :=
    Finset.sum_congr rfl (fun c _ => by unfold colSel; rw [dif_pos c.isLt])
  rw [hsum, sum_cols]
  -- each column's term is its selected table entry
  have e0 := col_read x0 x1 hx r h 0 (by norm_num) 0 (by norm_num) inb_S512x32_S512x1_0_0 inb_S64048x128_S2048x128_0_0
  have e1 := col_read x0 x1 hx r h 1 (by norm_num) 2000 (by norm_num) inb_S512x32_S512x1_0_1 inb_S64048x128_S2048x128_2000_0
  have e2 := col_read x0 x1 hx r h 2 (by norm_num) 4000 (by norm_num) inb_S512x32_S512x1_0_2 inb_S64048x128_S2048x128_4000_0
  have e3 := col_read x0 x1 hx r h 3 (by norm_num) 6000 (by norm_num) inb_S512x32_S512x1_0_3 inb_S64048x128_S2048x128_6000_0
  have e4 := col_read x0 x1 hx r h 4 (by norm_num) 8000 (by norm_num) inb_S512x32_S512x1_0_4 inb_S64048x128_S2048x128_8000_0
  have e5 := col_read x0 x1 hx r h 5 (by norm_num) 10000 (by norm_num) inb_S512x32_S512x1_0_5 inb_S64048x128_S2048x128_10000_0
  have e6 := col_read x0 x1 hx r h 6 (by norm_num) 12000 (by norm_num) inb_S512x32_S512x1_0_6 inb_S64048x128_S2048x128_12000_0
  have e7 := col_read x0 x1 hx r h 7 (by norm_num) 14000 (by norm_num) inb_S512x32_S512x1_0_7 inb_S64048x128_S2048x128_14000_0
  have e8 := col_read x0 x1 hx r h 8 (by norm_num) 16000 (by norm_num) inb_S512x32_S512x1_0_8 inb_S64048x128_S2048x128_16000_0
  have e9 := col_read x0 x1 hx r h 9 (by norm_num) 18000 (by norm_num) inb_S512x32_S512x1_0_9 inb_S64048x128_S2048x128_18000_0
  have e10 := col_read x0 x1 hx r h 10 (by norm_num) 20000 (by norm_num) inb_S512x32_S512x1_0_10 inb_S64048x128_S2048x128_20000_0
  have e11 := col_read x0 x1 hx r h 11 (by norm_num) 22000 (by norm_num) inb_S512x32_S512x1_0_11 inb_S64048x128_S2048x128_22000_0
  have e12 := col_read x0 x1 hx r h 12 (by norm_num) 24000 (by norm_num) inb_S512x32_S512x1_0_12 inb_S64048x128_S2048x128_24000_0
  have e13 := col_read x0 x1 hx r h 13 (by norm_num) 26000 (by norm_num) inb_S512x32_S512x1_0_13 inb_S64048x128_S2048x128_26000_0
  have e14 := col_read x0 x1 hx r h 14 (by norm_num) 28000 (by norm_num) inb_S512x32_S512x1_0_14 inb_S64048x128_S2048x128_28000_0
  have e15 := col_read x0 x1 hx r h 15 (by norm_num) 30000 (by norm_num) inb_S512x32_S512x1_0_15 inb_S64048x128_S2048x128_30000_0
  have e16 := col_read x0 x1 hx r h 16 (by norm_num) 32000 (by norm_num) inb_S512x32_S512x1_0_16 inb_S64048x128_S2048x128_32000_0
  have e17 := col_read x0 x1 hx r h 17 (by norm_num) 34000 (by norm_num) inb_S512x32_S512x1_0_17 inb_S64048x128_S2048x128_34000_0
  have e18 := col_read x0 x1 hx r h 18 (by norm_num) 36000 (by norm_num) inb_S512x32_S512x1_0_18 inb_S64048x128_S2048x128_36000_0
  have e19 := col_read x0 x1 hx r h 19 (by norm_num) 38000 (by norm_num) inb_S512x32_S512x1_0_19 inb_S64048x128_S2048x128_38000_0
  have e20 := col_read x0 x1 hx r h 20 (by norm_num) 40000 (by norm_num) inb_S512x32_S512x1_0_20 inb_S64048x128_S2048x128_40000_0
  have e21 := col_read x0 x1 hx r h 21 (by norm_num) 42000 (by norm_num) inb_S512x32_S512x1_0_21 inb_S64048x128_S2048x128_42000_0
  have e22 := col_read x0 x1 hx r h 22 (by norm_num) 44000 (by norm_num) inb_S512x32_S512x1_0_22 inb_S64048x128_S2048x128_44000_0
  have e23 := col_read x0 x1 hx r h 23 (by norm_num) 46000 (by norm_num) inb_S512x32_S512x1_0_23 inb_S64048x128_S2048x128_46000_0
  have e24 := col_read x0 x1 hx r h 24 (by norm_num) 48000 (by norm_num) inb_S512x32_S512x1_0_24 inb_S64048x128_S2048x128_48000_0
  have e25 := col_read x0 x1 hx r h 25 (by norm_num) 50000 (by norm_num) inb_S512x32_S512x1_0_25 inb_S64048x128_S2048x128_50000_0
  have e26 := col_read x0 x1 hx r h 26 (by norm_num) 52000 (by norm_num) inb_S512x32_S512x1_0_26 inb_S64048x128_S2048x128_52000_0
  have e27 := col_read x0 x1 hx r h 27 (by norm_num) 54000 (by norm_num) inb_S512x32_S512x1_0_27 inb_S64048x128_S2048x128_54000_0
  have e28 := col_read x0 x1 hx r h 28 (by norm_num) 56000 (by norm_num) inb_S512x32_S512x1_0_28 inb_S64048x128_S2048x128_56000_0
  have e29 := col_read x0 x1 hx r h 29 (by norm_num) 58000 (by norm_num) inb_S512x32_S512x1_0_29 inb_S64048x128_S2048x128_58000_0
  have e30 := col_read x0 x1 hx r h 30 (by norm_num) 60000 (by norm_num) inb_S512x32_S512x1_0_30 inb_S64048x128_S2048x128_60000_0
  have e31 := col_read x0 x1 hx r h 31 (by norm_num) 62000 (by norm_num) inb_S512x32_S512x1_0_31 inb_S64048x128_S2048x128_62000_0
  -- the block is the one store's payload; the payloads are the running sum of the 32 column terms, plus the bias,
  -- under the logistic function
  unfold out0_3
  rw [View.canon_unit_zero hz, View.ld_unit_zero (S := S1x128) hz, pay2_eq, pay4_eq, pay6_eq, pay7_eq, pay9_eq, pay11_eq,
    pay13_eq, pay14_eq, pay1_eq]
  refine congrArg Ideal.logistic ?_
  simp only [addf_apply]
  rw [zeroAcc_apply, bias_apply, e0, e1, e2, e3, e4, e5, e6, e7, e8, e9, e10, e11, e12, e13, e14, e15, e16, e17, e18, e19, e20, e21, e22, e23, e24, e25, e26, e27, e28, e29, e30, e31]

end Cert.KernelIdeal.Enc

end
-- ==== Proof.KEncArr.lean ====
/-
  From the encoder's blocks to its whole result array.

  The encoder's grid has 4 points; point t stages rows 512·t … 512·t + 511 of the codes and of the result, and the
  whole table and bias at every point. Each point writes back its output block, the blocks tile the [2048 × 128]
  result, and the body's block at an entry depends only on that entry's own batch row: so the result array after the
  region is one whole-array function of the region's entry contents.
-/
import proofs.«421489_j46248207843741_3_alg».proof.Proof.Gen.KernelIdeal.Frame
import proofs.«421489_j46248207843741_3_alg».proof.Proof.KEncBody
import proofs.«421489_j46248207843741_3_alg».proof.Proof.Spec
import Idealize.ShloMosaic.Lib.Pipeline.Value

set_option maxRecDepth 16384
noncomputable section

open scoped BigOperators

namespace Cert.KernelIdeal.Enc

open Idealize.ShloMosaic Idealize.ShloMosaic.ValueIdx Idealize.ShloMosaic.TcCoe Cert.KernelIdeal Cert.KernelIdeal.Gen Cert.Dae
open Idealize.ShloMosaic.Pipeline (Dat Cfg Window)

variable (V : (c : Dev nD) → (b : Ref sig .tc) → Buf (Elt Ideal) ((c : Thread nD τ).loc b))

/-- The region's entry contents under their literal types: the [2048 × 32] codes, the zero-padded [64048 × 128] table
    of embeddings, the [1 × 128] bias row. -/
abbrev codes (c : Dev nD) : IVec S2048x32 32 := V c main_v0
abbrev table (c : Dev nD) : FVec Ideal S64048x128 .bf16 := V c main_v3
abbrev bias (c : Dev nD) : FVec Ideal S1x128 .f32 := V c main_v4

/-- The encoder as one whole-array function: entry (b, h) is σ( ∑ k < 32, table(2000·k + code(b, k), h) + bias(h) ). -/
def encG (X : IVec S2048x32 32) (T : FVec Ideal S64048x128 .bf16) (B : FVec Ideal S1x128 .f32) : FVec Ideal S2048x128 .f32 :=
  fun i => Ideal.logistic ((∑ k : Fin 32, padRow T (2000 * k.val + BitVec.toNat (X (ix2 (i 0) k))) (i 1)) + B (ix2 0 (i 1)))

/-- The block index maps over the 4 grid points: the codes' and the result's blocks are block row t, column 0; the
    table's and the bias's block is the array itself. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (r, k) of the codes' block at point t is entry (512·t + r, k) of the codes. -/
theorem codes_blk (c : Dev nD) (t : Fin cfg0.N) (y : S512x32.Idx) (i : S2048x32.Idx)
    (h0 : (i 0).val = 512 * t.val + (y 0).val) (h1 : (i 1).val = (y 1).val) :
    (iblk0 V c 0 t : Vec Ideal S512x32 .i32) y = codes V c i := by
  obtain ⟨e0, e1, -⟩ := idx_facts t
  unfold iblk0
  rw [View.read_apply]
  show V c main_v0 _ = V c main_v0 _
  congr 1
  funext a
  apply Fin.ext
  match a with
  | ⟨0, _⟩ => show win0_0.index t (0 : Fin 2) * 512 + 1 * (y 0).val = (i 0).val; omega
  | ⟨1, _⟩ => show win0_0.index t (1 : Fin 2) * 32 + 1 * (y 1).val = (i 1).val; omega

/-- The table's block at every point is the table. -/
theorem table_blk (c : Dev nD) (t : Fin cfg0.N) : (iblk0 V c 1 t : Vec Ideal S64048x128 .bf16) = table V c := by
  obtain ⟨-, -, e0, e1, -⟩ := idx_facts t
  funext y
  unfold iblk0
  rw [View.read_apply]
  show V c main_v3 _ = V c main_v3 _
  congr 1
  funext a
  apply Fin.ext
  match a with
  | ⟨0, _⟩ => show win0_1.index t (0 : Fin 2) * 64048 + 1 * (y 0).val = (y 0).val; omega
  | ⟨1, _⟩ => show win0_1.index t (1 : Fin 2) * 128 + 1 * (y 1).val = (y 1).val; omega

/-- The bias's block at every point is the bias row. -/
theorem bias_blk (c : Dev nD) (t : Fin cfg0.N) : (iblk0 V c 2 t : Vec Ideal S1x128 .f32) = bias V c := by
  obtain ⟨-, -, -, -, e0, e1, -⟩ := idx_facts t
  funext y
  unfold iblk0
  rw [View.read_apply]
  show V c main_v4 _ = V c main_v4 _
  congr 1
  funext a
  apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The body's output entry (p, q) from blocks that are the arrays' parts at a grid point: it is the whole-array
    function at the entry of the result that the block entry lands on (same batch row as the codes' row p, hidden
    unit q). -/
theorem body_at (X : IVec S2048x32 32) (T : FVec Ideal S64048x128 .bf16) (B : FVec Ideal S1x128 .f32)
    (x0 : Vec Ideal S512x32 .i32) (x1 : Vec Ideal S64048x128 .bf16) (x2 : Vec Ideal S1x128 .f32)
    (p : Fin 512) (q : Fin 128) (i : S2048x128.Idx) (hi1 : (i 1).val = q.val)
    (h0 : ∀ k : Fin 32, x0 (ix2 p k) = X (ix2 (i 0) k)) (h1 : x1 = T) (h2 : x2 = B)
    (hx : ∀ j, BitVec.toNat (x0 j) < 2000) :
    out0_3 (F := Ideal) x0 x1 x2 (ix2 p q) = encG X T B i := by
  rw [out0_3_apply x0 x1 x2 hx p q]
  subst h1 h2
  have hq : i 1 = q := Fin.ext hi1
  unfold encG
  rw [hq]
  simp only [h0]

/-- What point t writes back is block t of the whole-array function of the entry contents. -/
theorem flushed_eq (c : Dev nD) (hx : ∀ i, BitVec.toNat (codes V c i) < 2000) (t : Fin cfg0.N) :
    (dat0 (F := Ideal) V c).flushed 3 t
      = ((cfg0.win 3).blk t).view.read (Elt Ideal) (encG (codes V c) (table V c) (bias V c)) := by
  show (cfg0.win 3).cut (grid0.coords t) ((dat0 V c).after 3 t) = _
  rw [after0_3]
  funext y
  rw [View.read_apply]
  obtain ⟨-, -, -, -, -, -, e0, e1⟩ := idx_facts t
  have hy0 : (y 0).val < 512 := (y 0).isLt
  have hy1 : (y 1).val < 128 := (y 1).isLt
  have hxinj : (cfg0.win 3).xinj (grid0.coords t) y = ix2 (⟨(y 0).val, hy0⟩ : Fin 512) (⟨(y 1).val, hy1⟩ : Fin 128) := by
    funext a
    match a with
    | ⟨0, _⟩ => rfl
    | ⟨1, _⟩ => rfl
  show out0_3 (F := Ideal) (iblk0 V c 0 t) (iblk0 V c 1 t) (iblk0 V c 2 t) ((cfg0.win 3).xinj (grid0.coords t) y)
    = encG (codes V c) (table V c) (bias V c) (((cfg0.win 3).blk t).view.emb y)
  rw [hxinj]
  refine body_at (codes V c) (table V c) (bias V c) (iblk0 V c 0 t) (iblk0 V c 1 t) (iblk0 V c 2 t)
    ⟨(y 0).val, hy0⟩ ⟨(y 1).val, hy1⟩ (((cfg0.win 3).blk t).view.emb y) ?_ ?_ (table_blk V c t) (bias_blk V c t) ?_
  · show win0_3.index t (1 : Fin 2) * 128 + 1 * (y 1).val = (y 1).val
    omega
  · intro k
    refine codes_blk V c t (ix2 ⟨(y 0).val, hy0⟩ k) (ix2 ((((cfg0.win 3).blk t).view.emb y) 0) k) ?_ rfl
    show win0_3.index t (0 : Fin 2) * 512 + 1 * (y 0).val = 512 * t.val + (y 0).val
    omega
  · intro j
    exact hx (((cfg0.win 0).blk t).view.emb j)

/-- An entry of the result lies in point t's block iff each coordinate lies in the block's range on its axis. -/
theorem mem_blk (t : Fin cfg0.N) (i : S2048x128.Idx) :
    i ∈ ((cfg0.win 3).blk t).view.set ↔ ∀ a : Fin 2, win0_3.index t a * S512x128.size a ≤ (i a).val
      ∧ (i a).val < win0_3.index t a * S512x128.size a + S512x128.size a := by
  show i ∈ ((View.whole main_v5).slice (win0_3.rect t)).set ↔ _
  rw [View.set_slice_whole, Rect.mem_set_unit]
  exact Iff.rfl

/-- The blocks tile the result: batch row b lies in the block of point b / 512. -/
theorem covered (i : S2048x128.Idx) :
    ∃ t : Fin cfg0.N, (cfg0.win 3).flush t = true ∧ i ∈ ((cfg0.win 3).blk t).view.set := by
  have hi0 : (i 0).val < 2048 := (i 0).isLt
  have hi1 : (i 1).val < 128 := (i 1).isLt
  have hN : grid0.N = 4 := N_0
  have ht : (i 0).val / 512 < cfg0.N := by
    show (i 0).val / 512 < grid0.N
    omega
  obtain ⟨-, -, -, -, -, -, e0, e1⟩ := idx_facts ⟨(i 0).val / 512, ht⟩
  refine ⟨⟨(i 0).val / 512, ht⟩, flush0_3 _, ?_⟩
  rw [mem_blk]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_3.index ⟨(i 0).val / 512, ht⟩ (1 : Fin 2) * 128 ≤ (i 1).val
      ∧ (i 1).val < win0_3.index ⟨(i 0).val / 512, ht⟩ (1 : Fin 2) * 128 + 128
    rw [e1]
    omega

/-- The encoder's result array after its region, from the region's entry contents (codes `main_v0`, padded table
    `main_v3`, bias row `main_v4`), every code below 2000. -/
theorem enc_array (c : Dev nD) (hx : ∀ i, BitVec.toNat ((V c main_v0 : IVec S2048x32 32) i) < 2000) :
    ((dat0 (F := Ideal) V c).arrAt 3 cfg0.N : FVec Ideal S2048x128 .f32)
      = fun i => Ideal.logistic ((∑ k : Fin 32, padRow (V c main_v3 : FVec Ideal S64048x128 .bf16)
            (2000 * k.val + BitVec.toNat ((V c main_v0 : IVec S2048x32 32) (ix2 (i 0) k))) (i 1))
          + (V c main_v4 : FVec Ideal S1x128 .f32) (ix2 0 (i 1))) := by
  exact (dat0 (F := Ideal) V c).arrAt_eq_of_cover 3 (encG (codes V c) (table V c) (bias V c))
    (fun t _ => flushed_eq V c hx t) covered

end Cert.KernelIdeal.Enc

end
-- ==== Proof.LibDotRows.lean ====
/-
  A product of two arrays of rows, read at one entry.

  For dimension numbers that contract the left operand's axis 1 with the right operand's axis 1, keep the left
  operand's axis 0 and the right operand's axis 0, and batch nothing — the product  l · wᵀ  of an [n × K] array with a
  [c × K] array — the operand indices at result entry (r, v) and contraction position k are (r, k) and (v, k). So both
  the accumulate-into-zero `tpu.matmul` and the host's `dot_general` are, at the ideal values, the entry's plain sum
  ∑ q < K, l (r, q) · w (v, q)  over the shared axis: the same extended real whatever the number of rows of either
  operand. This identifies a product computed a block of the right operand's rows at a time with the whole product.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {n K c : Nat}

/-- Dimension numbers of a rows-by-rows product [n, K] × [c, K] → [n, c]: contract left axis 1 with right axis 1,
    result rows from the left operand's rows, result columns from the right operand's rows, no batch axis. -/
structure RowsRows (d : DotDims ⟨2, ![n, K]⟩ ⟨2, ![c, K]⟩ ⟨2, ![n, c]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![n, K]⟩ ⟨2, ![c, K]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsRows.rank_contr (h : RowsRows d) : d.contr.rank = 1 := by rw [d.rank_contr, h.lc]; rfl

/-- The contracted axis has the shared length K. -/
theorem RowsRows.size_contr (h : RowsRows d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsRows.lhs_row (h : RowsRows d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsRows.lhs_col (h : RowsRows d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the result's column: its axis 0 is kept, and comes after the left operand's one kept
    axis among the result's axes. -/
theorem RowsRows.rhs_row (h : RowsRows d) (j : (⟨2, ![n, c]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The right operand's column is the contraction position. -/
theorem RowsRows.rhs_col (h : RowsRows d) (j : (⟨2, ![n, c]⟩ : Shape).Idx) (k : d.contr.Idx) :
    (d.rhsIdx j k 1).val = (k ⟨0, by rw [h.rank_contr]; exact Nat.one_pos⟩).val :=
  d.rhsIdx_val_of_single h.rc j k

/-- The contraction's sum, re-indexed by the shared axis: ∑ q < K, l (r, q) · w (v, q). -/
theorem RowsRows.sum_eq (h : RowsRows d) (l : (⟨2, ![n, K]⟩ : Shape).Idx → EReal) (w : (⟨2, ![c, K]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 (j 1) q) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (result column, q)
  have e2 : d.rhsIdx j ((contrEquiv1 d K h.rank_contr h.size_contr).symm q) = ix2 (j 1) q := by
    funext a
    match a with
    | ⟨0, _⟩ => exact Fin.ext (h.rhs_row j _)
    | ⟨1, _⟩ => exact Fin.ext ((h.rhs_col j _).trans hk)
  exact congrArg₂ (· * ·) (congrArg l e1) (congrArg w e2)

/-- `tpu.matmul` into the zero accumulator, at an entry, at the ideal values (operands of any float formats). -/
theorem RowsRows.matmul_zero_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    matmul (F := Ideal) d prec l w (constant ⟨2, ![n, c]⟩ .f32 0x00000000#32) j
      = ∑ q : Fin K, l (ix2 (j 0) q) * w (ix2 (j 1) q) :=
  (Ideal.matmul_constant_zero_apply d prec l w j).trans (h.sum_eq l w j)

/-- The host's `dot_general`, at an entry, at the ideal values. -/
theorem RowsRows.dotGeneral_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    Host.dotGeneral (F := Ideal) d prec l w j = ∑ q : Fin K, l (ix2 (j 0) q) * w (ix2 (j 1) q) :=
  (Ideal.dotGeneral_apply d prec .single l w j).trans (h.sum_eq l w j)

end Cert.Lib.DotRows

end
-- ==== Proof.KDecBody.lean ====
/-
  What the decoder's body leaves in its output block, at an entry.

  From the whole [2048 × 128] hidden array, a block of 1280 rows of the decoder weight and the matching 1280 bias
  entries, the body forms the product of the hidden array with the transposed block and adds the bias along every
  batch row: the entry at batch row r and block column q is  ∑ h < 128, y(r, h) · w(q, h) + b(q).
-/
import proofs.«421489_j46248207843741_3_alg».proof.Proof.Gen.KernelIdeal.Frame
import proofs.«421489_j46248207843741_3_alg».proof.Proof.LibDotRows
import Idealize.ShloMosaic.Lib.Pipeline.Value

noncomputable section

open scoped BigOperators

namespace Cert.KernelIdeal.Dec

open Idealize.ShloMosaic Idealize.ShloMosaic.ValueIdx Cert.KernelIdeal Cert.KernelIdeal.Gen

/-- The zero offsets of a rank-2 block, as the constant function. -/
private theorem zero_offsets : (![0, 0] : Fin 2 → Nat) = fun _ => 0 := by
  funext a
  match a with
  | ⟨0, _⟩ => rfl
  | ⟨1, _⟩ => rfl

/-- The body's product contracts the hidden axis of both operands, keeps the batch rows of the hidden array and the
    rows of the weight block, and batches nothing. -/
private theorem product_dims : Cert.Lib.DotRows.RowsRows dot_S2048x128_S1280x128_S2048x1280_1_1_0_0_n_n :=
  ⟨rfl, rfl, rfl, rfl, rfl, rfl⟩

/-- The decoder body's output block at batch row r and block column q. -/
theorem out1_3_apply (y : Vec Ideal S2048x128 .f32) (w : Vec Ideal S1280x128 .bf16) (b : Vec Ideal S1x1280 .f32)
    (r : Fin 2048) (q : Fin 1280) :
    out1_3 (F := Ideal) y w b (ix2 r q) = (∑ h : Fin 128, y (ix2 r h) * w (ix2 q h)) + b (ix2 0 q) := by
  -- the one store covers the block, and every load reads a whole input block
  unfold out1_3
  rw [View.canon_unit_zero zero_offsets]
  simp only [View.ld_unit_zero (S := S2048x128) zero_offsets, View.ld_unit_zero (S := S1280x128) zero_offsets,
    View.ld_unit_zero (S := S1x1280) zero_offsets]
  unfold k1_pay1
  -- the sum is entrywise
  refine (addf_apply _ _ (ix2 r q)).trans ?_
  refine congrArg₂ (· + ·) ?_ ?_
  · -- the product into the zero accumulator is the plain sum over the hidden axis; the casts to the same shape and the
    -- narrowing of the hidden array are identities at the ideal values
    refine (product_dims.matmul_zero_apply none _ _ (ix2 r q)).trans ?_
    rw [shapeCast_self y, shapeCast_self w]
    rfl
  · -- the bias row is repeated along every batch row
    refine (broadcastTo_apply _ _ (ix2 r q) (ix2 0 q) ?_).trans ?_
    · intro a
      match a with
      | ⟨0, _⟩ => rfl
      | ⟨1, _⟩ => rfl
    · rw [shapeCast_self]

end Cert.KernelIdeal.Dec

end
-- ==== Proof.KDecArr.lean ====
/-
  From the decoder's blocks to its whole result array.

  The decoder's grid has 50 points; point t stages rows 1280·t … 1280·t + 1279 of the decoder weight, the matching
  1280 bias entries and columns 1280·t … 1280·t + 1279 of the result, and the whole hidden array at every point. Each
  point writes back its output block, the blocks tile the [2048 × 64000] result, and the body's block at an entry
  depends only on that entry's own batch row and column: so the result array after the region is one whole-array
  function of the region's entry contents.
-/
import proofs.«421489_j46248207843741_3_alg».proof.Proof.Gen.KernelIdeal.Frame
import proofs.«421489_j46248207843741_3_alg».proof.Proof.KDecBody
import Idealize.ShloMosaic.Lib.Pipeline.Value

set_option maxRecDepth 16384
noncomputable section

open scoped BigOperators

namespace Cert.KernelIdeal.Dec

open Idealize.ShloMosaic Idealize.ShloMosaic.ValueIdx Idealize.ShloMosaic.TcCoe Cert.KernelIdeal Cert.KernelIdeal.Gen
open Idealize.ShloMosaic.Pipeline (Dat Cfg Window)

variable (V : (c : Dev nD) → (b : Ref sig .tc) → Buf (Elt Ideal) ((c : Thread nD τ).loc b))

/-- The hidden array the decoder's region finds. -/
abbrev hid (c : Dev nD) : FVec Ideal S2048x128 .f32 := V c main_v5
/-- The decoder weight the decoder's region finds. -/
abbrev wdec (c : Dev nD) : FVec Ideal S64000x128 .bf16 := V c main_v6
/-- The bias row the decoder's region finds. -/
abbrev bdec (c : Dev nD) : FVec Ideal S1x64000 .f32 := V c main_v7

/-- The decoder's result as one function of the entry contents: at batch row r and column v, the hidden row r against
    weight row v, plus bias entry v. -/
abbrev decG (c : Dev nD) : FVec Ideal S2048x64000 .f32 :=
  fun i => (∑ h : Fin 128, hid V c (ix2 (i 0) h) * wdec V c (ix2 (i 1) h)) + bdec V c (ix2 0 (i 1))

/-- The four block index maps over the grid: the hidden window stays at block (0, 0); at point t the weight window is at
    block row t, the bias and the result windows at block column t. -/
theorem block_indices : ∀ t : Fin cfg1.N,
      win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

/-- The hidden window's block at every point is the whole hidden array. -/
theorem hid_block (c : Dev nD) (t : Fin cfg1.N) (x : S2048x128.Idx) :
    (iblk1 (F := Ideal) V c 0 t : Vec Ideal S2048x128 .f32) x = hid V c x := by
  obtain ⟨e0, e1, -⟩ := block_indices t
  unfold iblk1
  rw [View.read_apply]
  show V c main_v5 _ = V c main_v5 _
  congr 1
  funext a
  apply Fin.ext
  match a with
  | ⟨0, _⟩ => show win1_0.index t (0 : Fin 2) * 2048 + 1 * (x 0).val = (x 0).val; rw [e0]; omega
  | ⟨1, _⟩ => show win1_0.index t (1 : Fin 2) * 128 + 1 * (x 1).val = (x 1).val; rw [e1]; omega

/-- The weight window's block at point t is rows 1280·t … 1280·t + 1279 of the decoder weight. -/
theorem wdec_block (c : Dev nD) (t : Fin cfg1.N) (x : S1280x128.Idx) (k : S64000x128.Idx)
    (hk0 : (k 0).val = 1280 * t.val + (x 0).val) (hk1 : (k 1).val = (x 1).val) :
    (iblk1 (F := Ideal) V c 1 t : Vec Ideal S1280x128 .bf16) x = wdec V c k := by
  obtain ⟨-, -, e0, e1, -⟩ := block_indices t
  unfold iblk1
  rw [View.read_apply]
  show V c main_v6 _ = V c main_v6 _
  congr 1
  funext a
  apply Fin.ext
  match a with
  | ⟨0, _⟩ => show win1_1.index t (0 : Fin 2) * 1280 + 1 * (x 0).val = (k 0).val; rw [e0, hk0]; omega
  | ⟨1, _⟩ => show win1_1.index t (1 : Fin 2) * 128 + 1 * (x 1).val = (k 1).val; rw [e1, hk1]; omega

/-- The bias window's block at point t is entries 1280·t … 1280·t + 1279 of the bias row. -/
theorem bdec_block (c : Dev nD) (t : Fin cfg1.N) (x : S1x1280.Idx) (k : S1x64000.Idx)
    (hk0 : (k 0).val = (x 0).val) (hk1 : (k 1).val = 1280 * t.val + (x 1).val) :
    (iblk1 (F := Ideal) V c 2 t : Vec Ideal S1x1280 .f32) x = bdec V c k := by
  obtain ⟨-, -, -, -, e0, e1, -⟩ := block_indices t
  unfold iblk1
  rw [View.read_apply]
  show V c main_v7 _ = V c main_v7 _
  congr 1
  funext a
  apply Fin.ext
  match a with
  | ⟨0, _⟩ => show win1_2.index t (0 : Fin 2) * 1 + 1 * (x 0).val = (k 0).val; rw [e0, hk0]; omega
  | ⟨1, _⟩ => show win1_2.index t (1 : Fin 2) * 1280 + 1 * (x 1).val = (k 1).val; rw [e1, hk1]; omega

/-- One entry of a point's output block is the whole-array function at the entry it lands on: the body's entry at batch
    row r and block column q reads hidden row r, weight row 1280·n + q and bias entry 1280·n + q. -/
theorem block_entry (c : Dev nD) (n : Nat)
    (y : Vec Ideal S2048x128 .f32) (w : Vec Ideal S1280x128 .bf16) (b : Vec Ideal S1x1280 .f32)
    (hy : ∀ x : S2048x128.Idx, y x = hid V c x)
    (hw : ∀ (x : S1280x128.Idx) (k : S64000x128.Idx), (k 0).val = 1280 * n + (x 0).val → (k 1).val = (x 1).val →
      w x = wdec V c k)
    (hb : ∀ (x : S1x1280.Idx) (k : S1x64000.Idx), (k 0).val = (x 0).val → (k 1).val = 1280 * n + (x 1).val →
      b x = bdec V c k)
    (j : S2048x1280.Idx) (i : S2048x64000.Idx) (hi0 : (i 0).val = (j 0).val) (hi1 : (i 1).val = 1280 * n + (j 1).val) :
    out1_3 (F := Ideal) y w b j = decG V c i := by
  obtain ⟨r, q, rfl⟩ : ∃ (r : Fin 2048) (q : Fin 1280), j = ix2 r q := ⟨j 0, j 1, eq_ix2 j⟩
  obtain ⟨r', v, rfl⟩ : ∃ (r' : Fin 2048) (v : Fin 64000), i = ix2 r' v := ⟨i 0, i 1, eq_ix2 i⟩
  obtain rfl : r' = r := Fin.ext hi0
  have hv : v.val = 1280 * n + q.val := hi1
  rw [out1_3_apply]
  show _ = (∑ h : Fin 128, hid V c (ix2 r' h) * wdec V c (ix2 v h)) + bdec V c (ix2 0 v)
  rw [hb (ix2 0 q) (ix2 0 v) rfl hv]
  congr 1
  refine Finset.sum_congr rfl fun h _ => ?_
  rw [hy (ix2 r' h), hw (ix2 q h) (ix2 v h) hv rfl]

/-- What point t writes back is block t of the whole-array function. -/
theorem flushed_eq (c : Dev nD) (t : Fin cfg1.N) :
    (dat1 (F := Ideal) V c).flushed 3 t = ((cfg1.win 3).blk t).view.read (Elt Ideal) (decG V c) := by
  obtain ⟨-, -, -, -, -, -, e0, e1⟩ := block_indices t
  show (cfg1.win 3).cut (grid1.coords t) ((dat1 V c).after 3 t) = _
  rw [after1_3]
  funext j
  rw [View.read_apply]
  refine block_entry V c t.val (iblk1 V c 0 t) (iblk1 V c 1 t) (iblk1 V c 2 t)
    (hid_block V c t) (wdec_block V c t) (bdec_block V c t) j (((cfg1.win 3).blk t).view.emb j) ?_ ?_
  · show win1_3.index t (0 : Fin 2) * 2048 + 1 * (j 0).val = (j 0).val
    rw [e0]; omega
  · show win1_3.index t (1 : Fin 2) * 1280 + 1 * (j 1).val = 1280 * t.val + (j 1).val
    rw [e1]; omega

/-- An index of the result array is in point t's block iff each coordinate is in the block's range on its axis. -/
theorem mem_block (t : Fin cfg1.N) (i : S2048x64000.Idx) :
    i ∈ ((cfg1.win 3).blk t).view.set ↔ ∀ a : Fin 2, win1_3.index t a * S2048x1280.size a ≤ (i a).val
      ∧ (i a).val < win1_3.index t a * S2048x1280.size a + S2048x1280.size a := by
  show i ∈ ((View.whole main_v8).slice (win1_3.rect t)).set ↔ _
  rw [View.set_slice_whole, Rect.mem_set_unit]
  exact Iff.rfl

/-- The output blocks tile the result: column v lies in the block of point v / 1280, and every batch row in every block. -/
theorem covered (i : S2048x64000.Idx) :
    ∃ t : Fin cfg1.N, (cfg1.win 3).flush t = true ∧ i ∈ ((cfg1.win 3).blk t).view.set := by
  have hi0 : (i 0).val < 2048 := (i 0).isLt
  have hi1 : (i 1).val < 64000 := (i 1).isLt
  have ht : (i 1).val / 1280 < cfg1.N := by show (i 1).val / 1280 < 50; omega
  obtain ⟨-, -, -, -, -, -, e0, e1⟩ := block_indices ⟨(i 1).val / 1280, ht⟩
  refine ⟨⟨(i 1).val / 1280, ht⟩, flush1_3 _, ?_⟩
  rw [mem_block]
  intro a
  match a with
  | ⟨0, _⟩ =>
    show win1_3.index ⟨(i 1).val / 1280, ht⟩ (0 : Fin 2) * 2048 ≤ (i 0).val
      ∧ (i 0).val < win1_3.index ⟨(i 1).val / 1280, ht⟩ (0 : Fin 2) * 2048 + 2048
    rw [e0]; omega
  | ⟨1, _⟩ =>
    show win1_3.index ⟨(i 1).val / 1280, ht⟩ (1 : Fin 2) * 1280 ≤ (i 1).val
      ∧ (i 1).val < win1_3.index ⟨(i 1).val / 1280, ht⟩ (1 : Fin 2) * 1280 + 1280
    rw [e1]
    show (i 1).val / 1280 * 1280 ≤ (i 1).val ∧ (i 1).val < (i 1).val / 1280 * 1280 + 1280
    omega

/-- The decoder's result array after its region, from the region's entry contents (hidden array `main_v5`, decoder
    weight `main_v6`, bias row `main_v7`). -/
theorem dec_array (c : Dev nD) :
    ((dat1 (F := Ideal) V c).arrAt 3 cfg1.N : FVec Ideal S2048x64000 .f32)
      = fun i => (∑ h : Fin 128, hid V c (ix2 (i 0) h) * wdec V c (ix2 (i 1) h)) + bdec V c (ix2 0 (i 1)) := by
  exact (dat1 (F := Ideal) V c).arrAt_eq_of_cover 3 (decG V c) (fun t _ => flushed_eq V c t) covered

end Cert.KernelIdeal.Dec

end
-- ==== Proof.KValue.lean ====
/-
  The kernel's two results are the specification's.

  The first result array ends as the encoder's region left it: σ of the summed table rows plus the bias, read
  through what the host laid out before the region (the codes unchanged by the clamp, the padded table's row n the
  transposed weight's, the bias row the bias) — ENCODE. The second ends as the decoder's region left it: the
  contraction of the first result with the decoder weight plus the bias — DECODE of ENCODE.
-/
import proofs.«421489_j46248207843741_3_alg».proof.Proof.KHost
import proofs.«421489_j46248207843741_3_alg».proof.Proof.KEncArr
import proofs.«421489_j46248207843741_3_alg».proof.Proof.KDecArr
import proofs.«421489_j46248207843741_3_alg».proof.Proof.Spec

set_option maxRecDepth 16384
noncomputable section

open scoped BigOperators

namespace Cert.KernelIdeal.Val

open Idealize.ShloMosaic Idealize.ShloMosaic.ValueIdx Idealize.ShloMosaic.TcCoe Cert.KernelIdeal Cert.KernelIdeal.Gen Cert.Dae

variable (m : (ℓ : Loc nD τ sig) → Buf (Elt Ideal) ℓ) (ρ : Dev nD → PrngReg)

/-- The encoder's result array, from the launch memory: ENCODE of the codes, the encoder weight and its bias. -/
theorem enc_eq (c : Dev nD) (hX : InRange (m ((c.tc : Thread nD τ).loc main_arg0))) :
    ((dat0 (F := Ideal) (V5 m ρ) c).arrAt 3 cfg0.N : FVec Ideal S2048x128 .f32)
      = encY (m ((c.tc : Thread nD τ).loc main_arg0)) (m ((c.tc : Thread nD τ).loc main_arg1)) (m ((c.tc : Thread nD τ).loc main_arg2)) := by
  rw [Enc.enc_array (V5 m ρ) c (by rw [Host.V5_v0 m ρ c hX]; exact hX)]
  funext i
  obtain ⟨p, q, rfl⟩ : ∃ (p : Fin 2048) (q : Fin 128), i = ix2 p q := ⟨i 0, i 1, eq_ix2 i⟩
  show Ideal.logistic ((∑ k : Fin 32, padRow (V5 m ρ c main_v3 : FVec Ideal S64048x128 .bf16)
        (2000 * k.val + BitVec.toNat ((V5 m ρ c main_v0 : IVec S2048x32 32) (ix2 p k))) q)
      + (V5 m ρ c main_v4 : FVec Ideal S1x128 .f32) (ix2 0 q)) = _
  rw [Host.V5_v0 m ρ c hX, Host.V5_v4 m ρ c q]
  simp only [Host.V5_v3 m ρ c]
  rfl

/-- The first result after the run is ENCODE. -/
theorem v5_eq (c : Dev nD) (hX : InRange (m ((c.tc : Thread nD τ).loc main_arg0))) :
    (W8 m ρ c (Proc.devRef .tc main_v5) : FVec Ideal S2048x128 .f32)
      = encY (m ((c.tc : Thread nD τ).loc main_arg0)) (m ((c.tc : Thread nD τ).loc main_arg1)) (m ((c.tc : Thread nD τ).loc main_arg2)) :=
  (Host.W8_v5 m ρ c).trans (enc_eq m ρ c hX)

/-- The second result after the run is DECODE of ENCODE. -/
theorem v8_eq (c : Dev nD) (hX : InRange (m ((c.tc : Thread nD τ).loc main_arg0))) :
    (W8 m ρ c (Proc.devRef .tc main_v8) : FVec Ideal S2048x64000 .f32)
      = decZ (encY (m ((c.tc : Thread nD τ).loc main_arg0)) (m ((c.tc : Thread nD τ).loc main_arg1)) (m ((c.tc : Thread nD τ).loc main_arg2)))
          (m ((c.tc : Thread nD τ).loc main_arg3)) (m ((c.tc : Thread nD τ).loc main_arg4)) := by
  rw [Host.W8_v8 m ρ c, Dec.dec_array (V7 m ρ) c]
  have e5 : Dec.hid (V7 m ρ) c
      = encY (m ((c.tc : Thread nD τ).loc main_arg0)) (m ((c.tc : Thread nD τ).loc main_arg1)) (m ((c.tc : Thread nD τ).loc main_arg2)) :=
    (Host.V7_v5 m ρ c).trans (enc_eq m ρ c hX)
  funext i
  obtain ⟨p, v, rfl⟩ : ∃ (p : Fin 2048) (v : Fin 64000), i = ix2 p v := ⟨i 0, i 1, eq_ix2 i⟩
  show (∑ h : Fin 128, Dec.hid (V7 m ρ) c (ix2 p h) * Dec.wdec (V7 m ρ) c (ix2 v h)) + Dec.bdec (V7 m ρ) c (ix2 0 v) = _
  rw [e5]
  unfold decZ
  refine congrArg₂ (· + ·) (Finset.sum_congr rfl fun h _ => ?_) (Host.V7_v7 m ρ c v)
  exact congrArg (_ * ·) (Host.V7_v6 m ρ c v h)

end Cert.KernelIdeal.Val

end
-- ==== Proof.RTerms.lean ====
/-
  The reference's two results as pure terms of its argument arrays: its host operations composed in program order.
-/
import proofs.«421489_j46248207843741_3_alg».proof.ReferenceIdeal

noncomputable section

namespace Cert.ReferenceIdeal.Ref

open Idealize.ShloMosaic Cert.ReferenceIdeal

variable {F : FTy → Type} [FloatOps F] [Facts]
open Facts₀ Facts

/-- The 32 column offsets 0, 2000, …, 62000, laid along every batch row. -/
def offsets : IVec S2048x32 32 :=
  broadcastInDim S2048x32 ![0, 1] bcast_S1x32_S2048x32_0_1
    (broadcastInDim S1x32 ![1] bcast_S32_S1x32_1 (fun i => lit0 (S32.rowMajor i)))

/-- The global row index of each code: the code plus its column's offset, and 64000 more where that sum is negative
    (numpy's wrap of a negative index). -/
def gidx (X : IVec S2048x32 32) : IVec S2048x32 32 :=
  select (cmpi .slt (addi X offsets) (broadcastInDim S2048x32 ![] bcast_S_S2048x32 (constantI S_ 32 0#32)))
    (addi (addi X offsets) (broadcastInDim S2048x32 ![] bcast_S_S2048x32 (constantI S_ 32 64000#32)))
    (addi X offsets)

/-- The gathered rows of the transposed encoder weight, one per code: [2048 × 32 × 128]. -/
def rows (X : IVec S2048x32 32) (We : FVec F S128x64000 .f32) : FVec F S2048x32x128 .f32 :=
  Host.gather gather_S64000x128_S2048x32x1_S2048x32x128_2_0_n_n_0_2_1128
    (transpose S64000x128 [1, 0] We transposes_S128x64000_S64000x128_1_0)
    (broadcastInDim S2048x32x1 ![0, 1] bcast_S2048x32_S2048x32x1_0_1 (gidx X))

/-- The pre-activation: the gathered rows summed over the 32 columns, plus the bias along every batch row. -/
def refPre (X : IVec S2048x32 32) (We : FVec F S128x64000 .f32) (be : FVec F S128 .f32) : FVec F S2048x128 .f32 :=
  addf (Host.reduceAdd (rows X We) (constant S_ .f32 0x00000000#32) reducesTo_S2048x32x128_S2048x128_d1 h_S_)
    (broadcastInDim S2048x128 ![0, 1] bcast_S1x128_S2048x128_0_1 (broadcastInDim S1x128 ![1] bcast_S128_S1x128_1 be))

/-- The first result: 1 / (1 + exp(−pre-activation)). -/
def refY (X : IVec S2048x32 32) (We : FVec F S128x64000 .f32) (be : FVec F S128 .f32) : FVec F S2048x128 .f32 :=
  Host.divf (broadcastInDim S2048x128 ![] bcast_S_S2048x128 (constant S_ .f32 0x3F800000#32))
    (addf (broadcastInDim S2048x128 ![] bcast_S_S2048x128 (constant S_ .f32 0x3F800000#32))
      (Host.exp (Host.negf (refPre X We be))))

/-- The second result: the first one contracted with the decoder weight over the hidden axis, plus the bias. -/
def refZ (Y : FVec F S2048x128 .f32) (Wd : FVec F S64000x128 .f32) (bd : FVec F S64000 .f32) : FVec F S2048x64000 .f32 :=
  addf (Host.dotGeneral dot_S2048x128_S64000x128_S2048x64000_1_1_0_0_n_n none Y Wd)
    (broadcastInDim S2048x64000 ![0, 1] bcast_S1x64000_S2048x64000_0_1 (broadcastInDim S1x64000 ![1] bcast_S64000_S1x64000_1 bd))

end Cert.ReferenceIdeal.Ref

end
-- ==== Proof.RRun.lean ====
/-
  The reference's run: every weakly fair execution of its @main terminates without a fault, with its two results
  at the composed terms of the argument arrays (the first result 1 / (1 + exp(−pre-activation)), the second its
  contraction with the decoder weight plus the bias) and the argument arrays as launched.
-/
import proofs.«421489_j46248207843741_3_alg».proof.Proof.RTerms
import proofs.«421489_j46248207843741_3_alg».proof.Proof.Gen.ReferenceIdeal
import Idealize.ShloMosaic.Lib.StableHlo
import Idealize.ShloMosaic.Lib.StableHlo.Run

noncomputable section

namespace Cert.ReferenceIdeal.Ref

open Idealize.ShloMosaic Idealize.SL.Sem Cert.ReferenceIdeal

variable {F : FTy → Type} [FloatOps F] [Facts]
open Facts₀ Facts

/-- @main's 31 operations, in program order. -/
abbrev ops : List (HloOp τ sig (Elt F)) :=
  [
    StableHlo.nullary main_c (fun i => lit0 (S32.rowMajor i)),
    StableHlo.unary main_c main_v0 (broadcastInDim S1x32 ![1] bcast_S32_S1x32_1 : (⟨S32, .i32⟩ : BufTy).Contents (Elt F) → (⟨S1x32, .i32⟩ : BufTy).Contents (Elt F)),
    StableHlo.unary main_v0 main_v1 (broadcastInDim S2048x32 ![0, 1] bcast_S1x32_S2048x32_0_1 : (⟨S1x32, .i32⟩ : BufTy).Contents (Elt F) → (⟨S2048x32, .i32⟩ : BufTy).Contents (Elt F)),
    StableHlo.binary main_arg0 main_v1 main_v2 (addi : (⟨S2048x32, .i32⟩ : BufTy).Contents (Elt F) → (⟨S2048x32, .i32⟩ : BufTy).Contents (Elt F) → (⟨S2048x32, .i32⟩ : BufTy).Contents (Elt F)),
    StableHlo.unary main_arg1 main_v3 ((transpose S64000x128 [1, 0] · transposes_S128x64000_S64000x128_1_0) : (⟨S128x64000, .f32⟩ : BufTy).Contents (Elt F) → (⟨S64000x128, .f32⟩ : BufTy).Contents (Elt F)),
    StableHlo.nullary main_c_0 (constantI S_ 32 0#32),
    StableHlo.unary main_c_0 main_v4 (broadcastInDim S2048x32 ![] bcast_S_S2048x32 : (⟨S_, .i32⟩ : BufTy).Contents (Elt F) → (⟨S2048x32, .i32⟩ : BufTy).Contents (Elt F)),
    StableHlo.binary main_v2 main_v4 main_v5 (cmpi .slt : (⟨S2048x32, .i32⟩ : BufTy).Contents (Elt F) → (⟨S2048x32, .i32⟩ : BufTy).Contents (Elt F) → (⟨S2048x32, .i1⟩ : BufTy).Contents (Elt F)),
    StableHlo.nullary main_c_1 (constantI S_ 32 64000#32),
    StableHlo.unary main_c_1 main_v6 (broadcastInDim S2048x32 ![] bcast_S_S2048x32 : (⟨S_, .i32⟩ : BufTy).Contents (Elt F) → (⟨S2048x32, .i32⟩ : BufTy).Contents (Elt F)),
    StableHlo.binary main_v2 main_v6 main_v7 (addi : (⟨S2048x32, .i32⟩ : BufTy).Contents (Elt F) → (⟨S2048x32, .i32⟩ : BufTy).Contents (Elt F) → (⟨S2048x32, .i32⟩ : BufTy).Contents (Elt F)),
    StableHlo.ternary main_v5 main_v7 main_v2 main_v8 (select : (⟨S2048x32, .i1⟩ : BufTy).Contents (Elt F) → (⟨S2048x32, .i32⟩ : BufTy).Contents (Elt F) → (⟨S2048x32, .i32⟩ : BufTy).Contents (Elt F) → (⟨S2048x32, .i32⟩ : BufTy).Contents (Elt F)),
    StableHlo.unary main_v8 main_v9 (broadcastInDim S2048x32x1 ![0, 1] bcast_S2048x32_S2048x32x1_0_1 : (⟨S2048x32, .i32⟩ : BufTy).Contents (Elt F) → (⟨S2048x32x1, .i32⟩ : BufTy).Contents (Elt F)),
    StableHlo.binary main_v3 main_v9 main_v10 ((fun x i => Host.gather gather_S64000x128_S2048x32x1_S2048x32x128_2_0_n_n_0_2_1128 x i) : (⟨S64000x128, .f32⟩ : BufTy).Contents (Elt F) → (⟨S2048x32x1, .i32⟩ : BufTy).Contents (Elt F) → (⟨S2048x32x128, .f32⟩ : BufTy).Contents (Elt F)),
    StableHlo.nullary main_cst (constant S_ .f32 0x00000000#32),
    StableHlo.binary main_v10 main_cst main_v11 ((fun x v => Host.reduceAdd x v reducesTo_S2048x32x128_S2048x128_d1 h_S_) : (⟨S2048x32x128, .f32⟩ : BufTy).Contents (Elt F) → (⟨S_, .f32⟩ : BufTy).Contents (Elt F) → (⟨S2048x128, .f32⟩ : BufTy).Contents (Elt F)),
    StableHlo.unary main_arg2 main_v12 (broadcastInDim S1x128 ![1] bcast_S128_S1x128_1 : (⟨S128, .f32⟩ : BufTy).Contents (Elt F) → (⟨S1x128, .f32⟩ : BufTy).Contents (Elt F)),
    StableHlo.unary main_v12 main_v13 (broadcastInDim S2048x128 ![0, 1] bcast_S1x128_S2048x128_0_1 : (⟨S1x128, .f32⟩ : BufTy).Contents (Elt F) → (⟨S2048x128, .f32⟩ : BufTy).Contents (Elt F)),
    StableHlo.binary main_v11 main_v13 main_v14 (addf : (⟨S2048x128, .f32⟩ : BufTy).Contents (Elt F) → (⟨S2048x128, .f32⟩ : BufTy).Contents (Elt F) → (⟨S2048x128, .f32⟩ : BufTy).Contents (Elt F)),
    StableHlo.unary main_v14 main_v15 (Host.negf : (⟨S2048x128, .f32⟩ : BufTy).Contents (Elt F) → (⟨S2048x128, .f32⟩ : BufTy).Contents (Elt F)),
    StableHlo.unary main_v15 main_v16 (Host.exp : (⟨S2048x128, .f32⟩ : BufTy).Contents (Elt F) → (⟨S2048x128, .f32⟩ : BufTy).Contents (Elt F)),
    StableHlo.nullary main_cst_2 (constant S_ .f32 0x3F800000#32),
    StableHlo.unary main_cst_2 main_v17 (broadcastInDim S2048x128 ![] bcast_S_S2048x128 : (⟨S_, .f32⟩ : BufTy).Contents (Elt F) → (⟨S2048x128, .f32⟩ : BufTy).Contents (Elt F)),
    StableHlo.binary main_v17 main_v16 main_v18 (addf : (⟨S2048x128, .f32⟩ : BufTy).Contents (Elt F) → (⟨S2048x128, .f32⟩ : BufTy).Contents (Elt F) → (⟨S2048x128, .f32⟩ : BufTy).Contents (Elt F)),
    StableHlo.nullary main_cst_3 (constant S_ .f32 0x3F800000#32),
    StableHlo.unary main_cst_3 main_v19 (broadcastInDim S2048x128 ![] bcast_S_S2048x128 : (⟨S_, .f32⟩ : BufTy).Contents (Elt F) → (⟨S2048x128, .f32⟩ : BufTy).Contents (Elt F)),
    StableHlo.binary main_v19 main_v18 main_v20 (Host.divf : (⟨S2048x128, .f32⟩ : BufTy).Contents (Elt F) → (⟨S2048x128, .f32⟩ : BufTy).Contents (Elt F) → (⟨S2048x128, .f32⟩ : BufTy).Contents (Elt F)),
    StableHlo.binary main_v20 main_arg3 main_v21 ((fun l r => Host.dotGeneral dot_S2048x128_S64000x128_S2048x64000_1_1_0_0_n_n none l r) : (⟨S2048x128, .f32⟩ : BufTy).Contents (Elt F) → (⟨S64000x128, .f32⟩ : BufTy).Contents (Elt F) → (⟨S2048x64000, .f32⟩ : BufTy).Contents (Elt F)),
    StableHlo.unary main_arg4 main_v22 (broadcastInDim S1x64000 ![1] bcast_S64000_S1x64000_1 : (⟨S64000, .f32⟩ : BufTy).Contents (Elt F) → (⟨S1x64000, .f32⟩ : BufTy).Contents (Elt F)),
    StableHlo.unary main_v22 main_v23 (broadcastInDim S2048x64000 ![0, 1] bcast_S1x64000_S2048x64000_0_1 : (⟨S1x64000, .f32⟩ : BufTy).Contents (Elt F) → (⟨S2048x64000, .f32⟩ : BufTy).Contents (Elt F)),
    StableHlo.binary main_v21 main_v23 main_v24 (addf : (⟨S2048x64000, .f32⟩ : BufTy).Contents (Elt F) → (⟨S2048x64000, .f32⟩ : BufTy).Contents (Elt F) → (⟨S2048x64000, .f32⟩ : BufTy).Contents (Elt F)) ]

/-- @main on any device is that line of operations, then the return. -/
theorem main_eq (c : Dev nD) : main (F := F) c = StableHlo.seq ops := rfl
/-- The signature scopes no buffer of the TensorCore. -/
theorem scopedRefs_eq : (Finset.univ.filter fun b : Ref sig .tc => b.isScoped) = ∅ := by decide
/-- The signature has no semaphore, hence scopes none. -/
theorem scopedSems_eq : (Finset.univ.filter fun sm : SemLoc sig => sm.isScoped .tc) = ∅ := by decide
/-- Every operation of the line touches TensorCore references only. -/
theorem ops_sub : (ops : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub ..⟩

variable (m : (ℓ : Loc nD τ sig) → Buf (Elt F) ℓ) (ρ : Dev nD → PrngReg)

theorem run : θ_run defs (onTc (τ := τ) (main (F := F))) ⟨m, fun _ => 0, ρ⟩ (fun r => ∀ c : Dev nD,
      r.2.mem ((c.tc : Thread nD τ).loc main_v20)
        = refY (m ((c.tc : Thread nD τ).loc main_arg0)) (m ((c.tc : Thread nD τ).loc main_arg1)) (m ((c.tc : Thread nD τ).loc main_arg2))
      ∧ r.2.mem ((c.tc : Thread nD τ).loc main_v24)
        = refZ (refY (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  -- every buffer ends at the fold of the operations' results over the launch contents; at the two result buffers
  -- that fold is the composed term (each operation's value at its operands' values, in program order), and no
  -- operation writes an argument buffer, so each keeps its launch contents
  (θ_run defs _ _).mono (fun _ h c => ⟨(h c main_v20).trans (by after_results_simp; rfl),
      (h c main_v24).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp)⟩)
    (StableHlo.run_seq scopedRefs_eq scopedSems_eq defs main (fun _ => ops) main_eq (fun _ => ops_sub) m ρ)

end Cert.ReferenceIdeal.Ref

end
-- ==== Proof.LibGatherRows3.lean ====
/-
  A row take from a rank-2 table at a rank-3 array of positions, read at an index.

  The row take `table[idx]` over an [N × C] table and an [a × b] array of positions is a `stablehlo.gather` whose
  start indices are the positions with a trailing unit axis, [a × b × 1]: the table's axis 0 is collapsed and
  start-indexed, its axis 1 is the result's one offset axis (a whole row is the slice), there are no batching axes,
  and the index vector lies on the last axis of the start indices. The result is [a × b × C]; this file reads it at
  a result index.
-/
import Idealize.ShloMosaic.Lib.ValueIdx
import Idealize.ShloMosaic.PureOps.ShapeOps
import Idealize.ShloMosaic.PureOps.Dims

namespace Cert.Lib

open Idealize.ShloMosaic Idealize.ShloMosaic.ValueIdx

/-- THE ROW TAKE AT AN [a × b] ARRAY OF POSITIONS. A gather from an [N × C] table at [a × b × 1] start indices, the
    table's axis 0 collapsed and start-indexed, the result's axis 2 its one offset axis, no batching axes and the
    index vector on axis 2 (`hoff` … `hivd`: the dimension numbers, each by `rfl` at a literal record): the result's
    entry (p, q, k) is the table's entry (r, k), where the row r is position (p, q)'s start index read SIGNED and
    CLAMPED into the table (a negative index reads row 0, one past the end reads the last row). -/
theorem gather_rows3 {α : Type} {N C a b w : Nat}
    (d : GatherDims ⟨2, ![N, C]⟩ ⟨3, ![a, b, 1]⟩ ⟨3, ![a, b, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![a, b, 1]⟩ w) (p : Fin a) (q : Fin b) (k : Fin C) (hN : 0 < N) :
    Host.gather d x idx (ix3 p q k) = x (ix2 ⟨min (idx (ix3 p q 0)).toInt.toNat (N - 1), by omega⟩ k) := by
  unfold Host.gather
  congr 1
  -- the result's batch axes are 0 and 1, and so are the start indices' axes but the index vector's
  have hbd : d.batchDims = [0, 1] := by
    show Shape.kept _ d.offsetDims = _
    rw [hoff]; rfl
  have hsk : d.siKept = [0, 1] := by
    show (List.finRange 3).filter (fun y : Fin 3 => decide (y.val ≠ d.indexVectorDim)) = _
    rw [hivd]; rfl
  have pick0 : ∀ (l₁ l₂ : List (Fin 3)), l₁ = [0, 1] → l₂ = [0, 1] → ∀ (z : Fin 3), z.val = 0 →
      ∀ h, l₁[l₂.idxOf z]'h = 0 := by
    intro l₁ l₂ h₁ h₂ z hz; subst h₁ h₂; obtain rfl : z = 0 := Fin.ext hz; intro _; rfl
  have pick1 : ∀ (l₁ l₂ : List (Fin 3)), l₁ = [0, 1] → l₂ = [0, 1] → ∀ (z : Fin 3), z.val = 1 →
      ∀ h, l₁[l₂.idxOf z]'h = 1 := by
    intro l₁ l₂ h₁ h₂ z hz; subst h₁ h₂; obtain rfl : z = 1 := Fin.ext hz; intro _; rfl
  have hoffAll : ∀ y ∈ d.offsetDims, y = 2 := by
    intro y hy; rw [hoff] at hy; exact List.mem_singleton.1 hy
  have hb : ∀ ax : Fin 2, ax ∉ d.operandBatchingDims := by intro ax; rw [hob]; exact List.not_mem_nil
  funext ax
  apply Fin.ext
  match ax with
  | ⟨0, _⟩ =>
    -- axis 0: the clamped start index; no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show (d.operandIdx (ix3 p q k) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix3 p q 0)).toInt.toNat (N - 1)
    rw [hsl]
    congr 3
    congr 1
    funext bx
    match bx with
    | ⟨0, hb0⟩ =>
      unfold GatherDims.siIdx
      rw [dif_neg (by rw [hivd]; simp)]
      unfold GatherDims.siCoord
      apply Fin.ext
      simp only [Fin.val_cast]
      rw [pick0 _ _ hbd hsk ⟨0, hb0⟩ rfl]
    | ⟨1, hb1⟩ =>
      unfold GatherDims.siIdx
      rw [dif_neg (by rw [hivd]; simp)]
      unfold GatherDims.siCoord
      apply Fin.ext
      simp only [Fin.val_cast]
      rw [pick1 _ _ hbd hsk ⟨1, hb1⟩ rfl]
    | ⟨2, _⟩ =>
      unfold GatherDims.siIdx
      rw [dif_pos (by rw [hivd])]
      apply Fin.ext
      show List.idxOf (0 : Fin 2) d.startIndexMap = 0
      rw [hsim]; simp
  | ⟨1, _⟩ =>
    -- axis 1: not start-indexed, no batching; the offset coordinate is the result's last coordinate
    have hk : (1 : Fin 2) ∈ d.sKept := by rw [GatherDims.mem_sKept, hcoll]; exact ⟨by simp, hb 1⟩
    have hm : (1 : Fin 2) ∉ d.startIndexMap := by rw [hsim]; simp
    show (d.operandIdx (ix3 p q k) idx 1).val = _
    simp only [GatherDims.operandIdx, GatherDims.batchCoord_eq_zero _ _ _ (hb 1), Nat.add_zero, GatherDims.start,
      dif_neg hm, Nat.zero_add, GatherDims.offCoord, dif_pos hk]
    rw [hoffAll _ (List.getElem_mem _)]
    rfl

end Cert.Lib
-- ==== Proof.RRead.lean ====
/-
  The reference's two results are the specification's.

  With every code in its vocabulary the code plus its column's offset is a row number below 64000, neither negative
  (so never wrapped) nor clamped by the row take: the gathered row is the transposed weight's row 2000·c + code, the
  sum over the 32 columns plus the bias is the pre-activation, and 1 / (1 + exp(−t)) is the logistic function. The
  second result contracts the hidden axis of the first with the decoder weight's and adds the bias.
-/
import proofs.«421489_j46248207843741_3_alg».proof.Proof.RTerms
import proofs.«421489_j46248207843741_3_alg».proof.Proof.Spec
import proofs.«421489_j46248207843741_3_alg».proof.Proof.LibGatherRows3
import proofs.«421489_j46248207843741_3_alg».proof.Proof.LibDotRows
import Idealize.ShloMosaic.Lib.IdealHost
import Idealize.ShloMosaic.Lib.Pipeline.Value
import Idealize.ShloMosaic.Lib.ValueLayout
import Idealize.ShloMosaic.Lib.KernelVsHost

noncomputable section

open scoped BigOperators

namespace Cert.ReferenceIdeal.Ref

open Idealize.ShloMosaic Idealize.ShloMosaic.ValueIdx Cert.ReferenceIdeal Cert.Dae

variable [Facts]
open Facts₀ Facts

/-- A vector laid along a new leading unit axis reads the vector. -/
theorem bcastRow_apply {α : Type} {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) ?_
  intro a
  fin_cases a
  show t.val = if n = 1 then 0 else t.val
  split_ifs with hn
  · have := t.isLt; omega
  · rfl

/-- A vector laid along every row of a matrix reads the vector at the column. -/
theorem bcastRows_apply {α : Type} {m n : ℕ} (h1 : (⟨1, ![n]⟩ : Shape).BroadcastsInDim ⟨2, ![1, n]⟩ ![1])
    (h2 : (⟨2, ![1, n]⟩ : Shape).BroadcastsInDim ⟨2, ![m, n]⟩ ![0, 1])
    (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) := by
  rw [broadcastInDim_oneRow_apply, bcastRow_apply]

/-- The offset of column c is the word 2000·c. -/
theorem offsets_apply (b : Fin 2048) (c : Fin 32) : offsets (ix2 b c) = BitVec.ofNat 32 (2000 * c.val) := by
  unfold offsets
  rw [bcastRows_apply]
  show lit0 (S32.rowMajor (ix1 c)) = _
  have e : S32.rowMajor (ix1 c) = c := Fin.ext (Shape.rowMajor_val_one _)
  rw [e]
  fin_cases c <;> rfl

/-- A code below 2000 plus the offset 2000·c of a column c below 32 is the number 2000·c + code, below 64000: as a
    signed word it is not negative, so the wrap leaves it, and read signed it is that number. -/
theorem wrap_toNat (x : BitVec 32) (c : ℕ) (hx : x.toNat < 2000) (hc : c < 32) :
    (Scalar.select (IntOp.cmpi .slt (IntOp.addi x (BitVec.ofNat 32 (2000 * c))) 0#32)
      (IntOp.addi (IntOp.addi x (BitVec.ofNat 32 (2000 * c))) 64000#32)
      (IntOp.addi x (BitVec.ofNat 32 (2000 * c)))).toInt.toNat = 2000 * c + x.toNat := by
  have hs : (IntOp.addi x (BitVec.ofNat 32 (2000 * c))).toNat = 2000 * c + x.toNat := by
    show (x + BitVec.ofNat 32 (2000 * c)).toNat = _
    rw [BitVec.toNat_add, BitVec.toNat_ofNat]
    omega
  have hi : (IntOp.addi x (BitVec.ofNat 32 (2000 * c))).toInt = ((2000 * c + x.toNat : ℕ) : ℤ) := by
    rw [BitVec.toInt_eq_toNat_of_lt (by rw [hs]; omega), hs]
  have hlt : IntOp.cmpi .slt (IntOp.addi x (BitVec.ofNat 32 (2000 * c))) 0#32 = 0#1 := by
    show BitVec.ofBool ((IntOp.addi x (BitVec.ofNat 32 (2000 * c))).slt 0#32) = 0#1
    rw [BitVec.slt_eq_decide, hi, BitVec.toInt_zero, decide_eq_false (by omega)]
    rfl
  rw [hlt, select_zero, hi, Int.toNat_natCast]

/-- The global row index of code (b, c), read signed, is the number 2000·c + code. -/
theorem gidx_toNat (X : IVec S2048x32 32) (hX : InRange X) (b : Fin 2048) (c : Fin 32) :
    (gidx X (ix2 b c)).toInt.toNat = 2000 * c.val + (X (ix2 b c)).toNat := by
  unfold gidx
  rw [select_apply]
  show (Scalar.select (IntOp.cmpi .slt (IntOp.addi (X (ix2 b c)) (offsets (ix2 b c)))
      (broadcastInDim S2048x32 ![] bcast_S_S2048x32 (constantI S_ 32 0#32) (ix2 b c)))
    (IntOp.addi (IntOp.addi (X (ix2 b c)) (offsets (ix2 b c)))
      (broadcastInDim S2048x32 ![] bcast_S_S2048x32 (constantI S_ 32 64000#32) (ix2 b c)))
    (IntOp.addi (X (ix2 b c)) (offsets (ix2 b c)))).toInt.toNat = _
  rw [broadcastInDim_scalar_apply, broadcastInDim_scalar_apply, offsets_apply]
  exact wrap_toNat _ _ (hX _) c.isLt

/-- The gathered row of code (b, c) at hidden unit h is the weight's entry (h, 2000·c + code). -/
theorem rows_apply (X : IVec S2048x32 32) (We : FVec Ideal S128x64000 .f32) (hX : InRange X) (b : Fin 2048) (c : Fin 32)
    (h : Fin 128) : rows (F := Ideal) X We (ix3 b c h) = encRow We h (2000 * c.val + (X (ix2 b c)).toNat) := by
  have hn : 2000 * c.val + (X (ix2 b c)).toNat < 64000 := by have := hX (ix2 b c); have := c.isLt; omega
  unfold rows encRow
  rw [Cert.Lib.gather_rows3 _ rfl rfl rfl rfl rfl _ _ b c h (by norm_num), transpose_ix2_apply, dif_pos hn]
  congr 2
  apply Fin.ext
  show min (broadcastInDim S2048x32x1 ![0, 1] bcast_S2048x32_S2048x32x1_0_1 (gidx X) (ix3 b c 0)).toInt.toNat (64000 - 1) = _
  rw [broadcastInDim_apply ![0, 1] bcast_S2048x32_S2048x32x1_0_1 (gidx X) (ix3 b c 0) (ix2 b c)
    (fun a => match a with | ⟨0, _⟩ => rfl | ⟨1, _⟩ => rfl), gidx_toNat X hX]
  exact Nat.min_eq_left (by omega)

/-- The reference's pre-activation is the specification's. -/
theorem refPre_apply (X : IVec S2048x32 32) (We : FVec Ideal S128x64000 .f32) (be : FVec Ideal S128 .f32) (hX : InRange X)
    (b : Fin 2048) (h : Fin 128) : refPre (F := Ideal) X We be (ix2 b h) = encPre X We be b h := by
  have hR : S2048x32x128.Reduces [1] S2048x128 := by decide
  unfold refPre encPre
  rw [addf_apply, bcastRows_apply, hostReduceAdd_apply, Ideal.hostReduceAdd_single _ hR, constant_apply,
    Ideal.ofBits_zero_f32, zero_add]
  congr 1
  refine Finset.sum_congr rfl fun k _ => ?_
  have e : hR.lift (ix2 b h) k = ix3 b k h := by
    funext a
    match a with
    | ⟨0, _⟩ => rfl
    | ⟨1, _⟩ => rfl
    | ⟨2, _⟩ => rfl
  rw [e]
  exact rows_apply X We hX b k h

/-- The decoder product's dimension numbers: rows of the left operand by rows of the right. -/
theorem dot_rowsRows : Cert.Lib.DotRows.RowsRows dot_S2048x128_S64000x128_S2048x64000_1_1_0_0_n_n :=
  ⟨rfl, rfl, rfl, rfl, rfl, rfl⟩

/-- The reference's first result is ENCODE of the specification, every code in its vocabulary. -/
theorem refY_eq (X : IVec S2048x32 32) (We : FVec Ideal S128x64000 .f32) (be : FVec Ideal S128 .f32) (hX : InRange X) :
    refY (F := Ideal) X We be = encY X We be := by
  funext i
  obtain ⟨b, h, rfl⟩ : ∃ (b : Fin 2048) (h : Fin 128), i = ix2 b h := ⟨i 0, i 1, eq_ix2 i⟩
  unfold refY encY
  rw [hostDivf_apply, addf_apply, broadcastInDim_scalar_apply, constant_apply, Ideal.ofBits_one_f32]
  show Ideal.div 1 (1 + Ideal.exp (-(refPre (F := Ideal) X We be (ix2 b h)))) = _
  rw [refPre_apply X We be hX]
  rfl

/-- The reference's second result is DECODE of the specification. -/
theorem refZ_eq (Y : FVec Ideal S2048x128 .f32) (Wd : FVec Ideal S64000x128 .f32) (bd : FVec Ideal S64000 .f32) :
    refZ (F := Ideal) Y Wd bd = decZ Y Wd bd := by
  funext i
  obtain ⟨b, v, rfl⟩ : ∃ (b : Fin 2048) (v : Fin 64000), i = ix2 b v := ⟨i 0, i 1, eq_ix2 i⟩
  unfold refZ decZ
  rw [addf_apply, dot_rowsRows.dotGeneral_apply, bcastRows_apply]

end Cert.ReferenceIdeal.Ref

end
-- ==== Proof.PreFacts.lean ====
/-
  What the precondition says of the codes: every categorical code is at least 0 and below 2000 as a signed word, so
  as an unsigned word it is below 2000.
-/
import proofs.«421489_j46248207843741_3_alg».proof.Pre_finite_inputs
import proofs.«421489_j46248207843741_3_alg».proof.Proof.Gen.Pre_finite_inputs
import proofs.«421489_j46248207843741_3_alg».proof.Proof.Spec
import Idealize.ShloMosaic.Lib.ReduceAll
import Idealize.ShloMosaic.Lib.StableHlo.Predicate

noncomputable section

open scoped BigOperators

namespace Cert.Pre_finite_inputs.Dom

open Idealize.ShloMosaic Idealize.ShloMosaic.ValueIdx Cert.Pre_finite_inputs Cert.Dae

variable [Facts]
open Facts

/-- Where the precondition evaluates to true, every code lies in its vocabulary. -/
theorem inRange_of_pre (x0 : IVec S2048x32 32) (x1 : FVec Ideal S128x64000 .f32) (x2 : FVec Ideal S128 .f32)
    (x3 : FVec Ideal S64000x128 .f32) (x4 : FVec Ideal S64000 .f32)
    (h : fn (F := Ideal) x0 x1 x2 x3 x4 = fun _ => 1#1) : InRange x0 := by
  -- the result is a scalar: its index type has one inhabitant
  haveI : Subsingleton S_.Idx := ⟨fun a b => funext fun d => d.elim0⟩
  -- the claim read at the one index, the printed chain of operations in view
  have h0 := congrFun h ValueIdx.ix0
  dsimp only [fn, fn_part1] at h0
  -- a conjunction of bits that is 1 has both bits 1: peel off the last two conjuncts
  obtain ⟨h1, hlt⟩ := IntOp.andi_eq_one.1 h0
  obtain ⟨_, hge⟩ := IntOp.andi_eq_one.1 h1
  intro i
  -- each of the two is a conjunction over all entries, so it holds at entry i
  have a := Host.reduce_andi_all _ _ _ _ _ hge i
  have b := Host.reduce_andi_all _ _ _ _ _ hlt i
  -- a broadcast scalar reads the scalar: the comparisons are against the words 0 and 2000, as signed integers
  have a' : (0#32 : BitVec 32).toInt ≤ (x0 i).toInt := IntOp.cmpi_sge.1 a
  have b' : (x0 i).toInt < (2000#32 : BitVec 32).toInt := IntOp.cmpi_slt.1 b
  have e0 : (0#32 : BitVec 32).toInt = 0 := by decide
  have e1 : (2000#32 : BitVec 32).toInt = 2000 := by decide
  rw [e0] at a'
  rw [e1] at b'
  -- a word whose signed value is non-negative has that value as its unsigned value
  have hx := (x0 i).isLt
  rw [BitVec.toInt_eq_toNat_cond] at a' b'
  split at a' <;> omega

end Cert.Pre_finite_inputs.Dom

end
-- ==== Proof.lean ====
/-
  A denoising autoencoder over categorical codes: ENCODE  y(b, h) = σ( ∑ c < 32, We(h, 2000·c + X(b, c)) + be(h) )
  and DECODE  z(b, v) = ∑ h < 128, y(b, h) · Wd(v, h) + bd(v), for codes X(b, c) in [0, 2000).

  The kernel computes ENCODE as 32 one-hot products against windows of a zero-padded transposed weight, four blocks
  of 512 batch rows at a time, and DECODE as fifty blocks of 1280 result columns; the reference gathers the 32
  weight columns and contracts with the decoder weight on the host. On the extended reals every change of float
  format is the identity, a product into a zero accumulator is the plain sum, and sums may be regrouped freely, so
  both programs end with the same two arrays: the specification's `encY` and `decZ` (Proof/Spec.lean). The precondition
  is used only for the codes' range; no law here needs finiteness.
-/
import proofs.«421489_j46248207843741_3_alg».proof.Defs
import proofs.«421489_j46248207843741_3_alg».proof.Proof.Gen.Kernel
import proofs.«421489_j46248207843741_3_alg».proof.Proof.Gen.Kernel.Skeleton
import proofs.«421489_j46248207843741_3_alg».proof.Proof.Gen.Kernel.Launch
import proofs.«421489_j46248207843741_3_alg».proof.Proof.Gen.Kernel.Points
import proofs.«421489_j46248207843741_3_alg».proof.Proof.Gen.Kernel.Frame
import proofs.«421489_j46248207843741_3_alg».proof.Proof.Gen.KernelIdeal
import proofs.«421489_j46248207843741_3_alg».proof.Proof.Gen.KernelIdeal.Skeleton
import proofs.«421489_j46248207843741_3_alg».proof.Proof.Gen.KernelIdeal.Launch
import proofs.«421489_j46248207843741_3_alg».proof.Proof.Gen.KernelIdeal.Points
import proofs.«421489_j46248207843741_3_alg».proof.Proof.Gen.KernelIdeal.Frame
import proofs.«421489_j46248207843741_3_alg».proof.Proof.Gen.ReferenceIdeal
import proofs.«421489_j46248207843741_3_alg».proof.Proof.Gen.Pre_finite_inputs
import proofs.«421489_j46248207843741_3_alg».proof.Proof.Spec
import proofs.«421489_j46248207843741_3_alg».proof.Proof.KRun
import proofs.«421489_j46248207843741_3_alg».proof.Proof.KValue
import proofs.«421489_j46248207843741_3_alg».proof.Proof.RRun
import proofs.«421489_j46248207843741_3_alg».proof.Proof.RRead
import proofs.«421489_j46248207843741_3_alg».proof.Proof.PreFacts
import Idealize.ShloMosaic.Adequacy
import Idealize.ShloMosaic.Init

noncomputable section

namespace Cert.Proof

open Idealize.ShloMosaic Idealize.ShloMosaic.TcCoe Idealize.SL.Sem Cert.Dae

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The reference runs and leaves its arguments as launched: its run with the two results dropped. -/
theorem frame_ri : Cert.frame_ReferenceIdeal := fun m ρ _ =>
  (θ_run Cert.ReferenceIdeal.defs _ _).mono (fun _ h c => (h c).2.2) (Cert.ReferenceIdeal.Ref.run (F := Ideal) m ρ)

/-- Under the precondition every code of the kernel's first argument lies in its vocabulary. -/
theorem inRange (m : (ℓ : Loc Cert.KernelIdeal.nD Cert.KernelIdeal.τ Cert.KernelIdeal.sig) → Buf (Elt Ideal) ℓ)
    (hpre : Cert.Pre_KernelIdeal m) (c : Dev Cert.KernelIdeal.nD) :
    InRange (m ((c.tc : Thread Cert.KernelIdeal.nD Cert.KernelIdeal.τ).loc Cert.KernelIdeal.main_arg0)) :=
  Cert.Pre_finite_inputs.Dom.inRange_of_pre _ _ _ _ _ (hpre c)

/-- Both idealized programs end with ENCODE and DECODE of the shared arguments. -/
theorem algebraic : Cert.algebraic_KernelIdeal_ReferenceIdeal := by
  intro m ρ m' ρ' hpre hagree
  refine ⟨fun c => encY (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => decZ (encY (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Val.v5_eq m ρ c (inRange m hpre c)),
        (h c).2.1.trans (Cert.KernelIdeal.Val.v8_eq m ρ c (inRange m hpre c)), (h c).2.2⟩)
      (Cert.KernelIdeal.GenRun.run_values (F := Ideal) m ρ)
  · refine (θ_run Cert.ReferenceIdeal.defs _ _).mono (fun _ h c => ⟨?_, ?_, (h c).2.2⟩)
      (Cert.ReferenceIdeal.Ref.run (F := Ideal) m' ρ')
    · rw [(h c).1, (hagree c).1, (hagree c).2.1, (hagree c).2.2.1]
      exact Cert.ReferenceIdeal.Ref.refY_eq _ _ _ (inRange m hpre c)
    · rw [(h c).2.1, (hagree c).1, (hagree c).2.1, (hagree c).2.2.1, (hagree c).2.2.2.1, (hagree c).2.2.2.2,
        Cert.ReferenceIdeal.Ref.refY_eq _ _ _ (inRange m hpre c)]
      exact Cert.ReferenceIdeal.Ref.refZ_eq _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
